-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000x64 : Shape := ⟨2, ![1600000, 64]⟩
abbrev S1600000 : Shape := ⟨1, ![1600000]⟩
abbrev S128x128 : Shape := ⟨2, ![128, 128]⟩
abbrev S128 : Shape := ⟨1, ![128]⟩
abbrev S64x128 : Shape := ⟨2, ![64, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x64 : S_.BroadcastsInDim S1600000x64 (![] : Fin 0 → Fin S1600000x64.rank)
  reducesTo_S1600000x64_S_d0_1 : S1600000x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_

variable [Facts]

def fn_part2 {F : FTy → Type} [FloatOps F] (main_arg9 : FVec F S128 .f32) (main_arg10 : FVec F S128x128 .f32) (main_arg11 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg6 : FVec F S64x128 .f32) (main_arg7 : FVec F S128 .f32) (main_arg8 : FVec F S128x128 .f32) (main_arg9 : FVec F S128 .f32) (main_arg10 : FVec F S128x128 .f32) (main_arg11 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S64x128 .f32 := Host.absf main_arg6
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_v33

def fn {F : FTy → Type} [FloatOps F] (main_arg0 : FVec F S100000x128 .f32) (main_arg1 : FVec F S1600000x64 .f32) (main_arg2 : IVec S1600000 32) (main_arg3 : IVec S1600000 32) (main_arg4 : FVec F S128x128 .f32) (main_arg5 : FVec F S128 .f32) (main_arg6 : FVec F S64x128 .f32) (main_arg7 : FVec F S128 .f32) (main_arg8 : FVec F S128x128 .f32) (main_arg9 : FVec F S128 .f32) (main_arg10 : FVec F S128x128 .f32) (main_arg11 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x64 .f32 := Host.absf main_arg1
  let main_cst_0 : FVec F S_ .f32 := constant S_ .f32 0x7F800000#32
  let main_v5 : FVec F S1600000x64 .f32 := broadcastInDim S1600000x64 ![] bcast_S_S1600000x64 main_cst_0
  let main_v6 : IVec S1600000x64 1 := cmpf .olt main_v4 main_v5
  let main_c_1 : IVec S_ 1 := constantI S_ 1 1#1
  let main_v7 : IVec S_ 1 := (fun x v => Host.reduce IntOp.andi x v reducesTo_S1600000x64_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S100000x128 : Shape := ⟨2, ![100000, 128]⟩
abbrev S1600000x64 : Shape := ⟨2, ![1600000, 64]⟩
abbrev S1600000 : Shape := ⟨1, ![1600000]⟩
abbrev S128x128 : Shape := ⟨2, ![128, 128]⟩
abbrev S128 : Shape := ⟨1, ![128]⟩
abbrev S64x128 : Shape := ⟨2, ![64, 128]⟩
abbrev S1x128 : Shape := ⟨2, ![1, 128]⟩
abbrev S1600000x128 : Shape := ⟨2, ![1600000, 128]⟩
abbrev S16000x64 : Shape := ⟨2, ![16000, 64]⟩
abbrev S16000x128 : Shape := ⟨2, ![16000, 128]⟩
abbrev S_ : Shape := ⟨0, ![]⟩
abbrev S1600000x1 : Shape := ⟨2, ![1600000, 1]⟩
abbrev S5000x128 : Shape := ⟨2, ![5000, 128]⟩

abbrev nBuf : Space → Nat
  | .hbm => 68
  | .vmem => 46
  | .smem => 0
  | _ => 0

abbrev bufTy : (tb : Table) → Fin (tcTables nBuf tb) → BufTy
  | .hbm, ⟨0, _⟩ => ⟨S100000x128, .f32⟩
  | .hbm, ⟨1, _⟩ => ⟨S1600000x64, .f32⟩
  | .hbm, ⟨2, _⟩ => ⟨S1600000, .i32⟩
  | .hbm, ⟨3, _⟩ => ⟨S1600000, .i32⟩
  | .hbm, ⟨4, _⟩ => ⟨S128x128, .f32⟩
  | .hbm, ⟨5, _⟩ => ⟨S128, .f32⟩
  | .hbm, ⟨6, _⟩ => ⟨S64x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S1x128, .f32⟩
  | .hbm, ⟨13, _⟩ => ⟨S1600000x128, .f32⟩
  | .hbm, ⟨14, _⟩ => ⟨S_, .f32⟩
  | .hbm, ⟨15, _⟩ => ⟨S100000x128, .f32⟩
  | .hbm, ⟨16, _⟩ => ⟨S1600000x1, .i32⟩
  | .hbm, ⟨17, _⟩ => ⟨S100000x128, .f32⟩
  | .hbm, ⟨18, _⟩ => ⟨S1x128, .f32⟩
  | .hbm, ⟨19, _⟩ => ⟨S100000x128, .f32⟩
  | .hbm, ⟨20, _⟩ => ⟨S100000x128, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x128, .f32⟩
  | .hbm, ⟨30, _⟩ => ⟨S_, .f32⟩
  | .hbm, ⟨31, _⟩ => ⟨S100000x128, .f32⟩
  | .hbm, ⟨32, _⟩ => ⟨S1600000x1, .i32⟩
  | .hbm, ⟨33, _⟩ => ⟨S100000x128, .f32⟩
  | .hbm, ⟨34, _⟩ => ⟨S1x128, .f32⟩
  | .hbm, ⟨35, _⟩ => ⟨S100000x128, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x128, .f32⟩
  | .hbm, ⟨45, _⟩ => ⟨S_, .f32⟩
  | .hbm, ⟨46, _⟩ => ⟨S100000x128, .f32⟩
  | .hbm, ⟨47, _⟩ => ⟨S1600000x1, .i32⟩
  | .hbm, ⟨48, _⟩ => ⟨S100000x128, .f32⟩
  | .hbm, ⟨49, _⟩ => ⟨S1x128, .f32⟩
  | .hbm, ⟨50, _⟩ => ⟨S100000x128, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x128, .f32⟩
  | .hbm, ⟨60, _⟩ => ⟨S_, .f32⟩
  | .hbm, ⟨61, _⟩ => ⟨S100000x128, .f32⟩
  | .hbm, ⟨62, _⟩ => ⟨S1600000x1, .i32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S1x128, .f32⟩
  | .hbm, ⟨67, _⟩ => ⟨S100000x128, .f32⟩
  | .local _ .vmem, ⟨0, _⟩ => ⟨S16000x64, .f32⟩
  | .local _ .vmem, ⟨1, _⟩ => ⟨S16000x64, .f32⟩
  | .local _ .vmem, ⟨2, _⟩ => ⟨S64x128, .f32⟩
  | .local _ .vmem, ⟨3, _⟩ => ⟨S1x128, .f32⟩
  | .local _ .vmem, ⟨4, _⟩ => ⟨S16000x128, .f32⟩
  | .local _ .vmem, ⟨5, _⟩ => ⟨S16000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S128x128, .f32⟩
  | .local _ .vmem, ⟨35, _⟩ => ⟨S1x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S128x128, .f32⟩
  | .local _ .vmem, ⟨43, _⟩ => ⟨S1x128, .f32⟩
  | .local _ .vmem, ⟨44, _⟩ => ⟨S5000x128, .f32⟩
  | .local _ .vmem, ⟨45, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6_0 : Ref sig .tc := ⟨.hbm, 19, rfl⟩
abbrev main_v6_1 : Ref sig .tc := ⟨.hbm, 20, rfl⟩
abbrev main_c : Ref sig .tc := ⟨.hbm, 21, rfl⟩
abbrev main_v7 : Ref sig .tc := ⟨.hbm, 22, rfl⟩
abbrev main_v8 : Ref sig .tc := ⟨.hbm, 23, rfl⟩
abbrev main_c_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_2 : Ref sig .tc := ⟨.hbm, 36, rfl⟩
abbrev main_v19 : Ref sig .tc := ⟨.hbm, 37, rfl⟩
abbrev main_v20 : Ref sig .tc := ⟨.hbm, 38, rfl⟩
abbrev main_c_3 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_4 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_5 : Ref sig .tc := ⟨.hbm, 51, rfl⟩
abbrev main_v31 : Ref sig .tc := ⟨.hbm, 52, rfl⟩
abbrev main_v32 : Ref sig .tc := ⟨.hbm, 53, rfl⟩
abbrev main_c_6 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_7 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc3_stg4_0 : Ref sig .tc := ⟨.vmem, 30, rfl⟩
abbrev cc3_stg4_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg3_1 : Ref sig .tc := ⟨.vmem, 37, rfl⟩
abbrev cc4_stg4_0 : Ref sig .tc := ⟨.vmem, 38, rfl⟩
abbrev cc4_stg4_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg2_0 : Ref sig .tc := ⟨.vmem, 43, rfl⟩
abbrev cc5_stg3_0 : Ref sig .tc := ⟨.vmem, 44, rfl⟩
abbrev cc5_stg3_1 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem3_1 : DmaSem sig := 29
abbrev cc3_sem4_0 : DmaSem sig := 30
abbrev cc3_sem4_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem3_0 : DmaSem sig := 36
abbrev cc4_sem3_1 : DmaSem sig := 37
abbrev cc4_sem4_0 : DmaSem sig := 38
abbrev cc4_sem4_1 : DmaSem sig := 39
abbrev cc5_sem0_0 : DmaSem sig := 40
abbrev cc5_sem0_1 : DmaSem sig := 41
abbrev cc5_sem1_0 : DmaSem sig := 42
abbrev cc5_sem2_0 : DmaSem sig := 43
abbrev cc5_sem3_0 : DmaSem sig := 44
abbrev cc5_sem3_1 : DmaSem sig := 45

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  shapeCasts_S128_S1x128 : S128.ShapeCasts S1x128
  inb_S16000x64_S16000x64_0_0 : ∀ a, (![0, 0] : Fin 2 → Nat) a + S16000x64.size a ≤ S16000x64.size a
  h_S16000x64 : 0 < S16000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S16000x128 : S1x128.Broadcasts S16000x128
  inb_S16000x128_S16000x128_0_0 : ∀ a, (![0, 0] : Fin 2 → Nat) a + S16000x128.size a ≤ S16000x128.size a
  h_S16000x128 : 0 < S16000x128.numel
  bcast_S_S100000x128 : S_.BroadcastsInDim S100000x128 (![] : Fin 0 → Fin S100000x128.rank)
  bcast_S1600000_S1600000x1_0 : S1600000.BroadcastsInDim S1600000x1 (![0] : Fin 1 → Fin S1600000x1.rank)
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  broadcasts_S1x128_S5000x128 : S1x128.Broadcasts S5000x128
  shapeCasts_S5000x128_S5000x128 : S5000x128.ShapeCasts S5000x128
  bcast_S_S1600000 : S_.BroadcastsInDim S1600000 (![] : Fin 0 → Fin S1600000.rank)
  dot_S16000x64_S64x128_S16000x128_1_0_0_1_n_n_wf : DotDims.WF S16000x64 S64x128 S16000x128 [1] [0] [0] [1] [] []
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x64.size a ≤ S1600000x64.size a
  hwx0_0 : ∀ i : grid0.Coords, EltTy.bits .f32 = 32 ∨ (Rect.block (s := S1600000x64) S16000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16000x128.size a ≤ S1600000x128.size a
  hwx0_3 : ∀ i : grid0.Coords, EltTy.bits .f32 = 32 ∨ (Rect.block (s := S1600000x128) S16000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S100000x128.size a
  hwx2_4 : ∀ i : grid2.Coords, EltTy.bits .f32 = 32 ∨ (Rect.block (s := S100000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S100000x128.size a
  hwx3_4 : ∀ i : grid3.Coords, EltTy.bits .f32 = 32 ∨ (Rect.block (s := S100000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S100000x128.size a
  hwx4_3 : ∀ i : grid4.Coords, EltTy.bits .f32 = 32 ∨ (Rect.block (s := S100000x128) S5000x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S100000x128.size a
  hwx4_4 : ∀ i : grid4.Coords, EltTy.bits .f32 = 32 ∨ (Rect.block (s := S100000x128) S5000x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S100000x128.size a
  hwx5_3 : ∀ i : grid5.Coords, EltTy.bits .f32 = 32 ∨ (Rect.block (s := S100000x128) S5000x128.size (cc5_transform_3 i) (hinb5_3 i)).WholeWords (EltTy.packing .f32)

variable [Facts₀]

def dot_S16000x64_S64x128_S16000x128_1_0_0_1_n_n : DotDims S16000x64 S64x128 S16000x128 where
  lhsContracting := [1]
  rhsContracting := [0]
  lhsNonContracting := [0]
  rhsNonContracting := [1]
  lhsBatch := []
  rhsBatch := []
  wf := dot_S16000x64_S64x128_S16000x128_1_0_0_1_n_n_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf

abbrev win0_0 : Pipeline.Window sig grid0 :=
  Pipeline.Window.ofSpec (Memref.whole main_arg1) S16000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S16000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S5000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v6_0) S5000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v6_1) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v16) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v17) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v6_0) S5000x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v18) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v28) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v29) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v6_0) S5000x128.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v30) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v40) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v41) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v6_0) S5000x128.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v42) S5000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v42) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg10) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v43) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v44) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000x128 : Shape := ⟨2, ![100000, 128]⟩
abbrev S1600000x64 : Shape := ⟨2, ![1600000, 64]⟩
abbrev S1600000 : Shape := ⟨1, ![1600000]⟩
abbrev S128x128 : Shape := ⟨2, ![128, 128]⟩
abbrev S128 : Shape := ⟨1, ![128]⟩
abbrev S64x128 : Shape := ⟨2, ![64, 128]⟩
abbrev S1600000x128 : Shape := ⟨2, ![1600000, 128]⟩
abbrev S1x128 : Shape := ⟨2, ![1, 128]⟩
abbrev S_ : Shape := ⟨0, ![]⟩
abbrev S1600000x1 : Shape := ⟨2, ![1600000, 1]⟩

abbrev nBuf : Space → Nat
  | .hbm => 98
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000x64, .f32⟩
  | .hbm, ⟨2, _⟩ => ⟨S1600000, .i32⟩
  | .hbm, ⟨3, _⟩ => ⟨S1600000, .i32⟩
  | .hbm, ⟨4, _⟩ => ⟨S128x128, .f32⟩
  | .hbm, ⟨5, _⟩ => ⟨S128, .f32⟩
  | .hbm, ⟨6, _⟩ => ⟨S64x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S1600000x128, .f32⟩
  | .hbm, ⟨13, _⟩ => ⟨S1x128, .f32⟩
  | .hbm, ⟨14, _⟩ => ⟨S1600000x128, .f32⟩
  | .hbm, ⟨15, _⟩ => ⟨S1600000x128, .f32⟩
  | .hbm, ⟨16, _⟩ => ⟨S_, .f32⟩
  | .hbm, ⟨17, _⟩ => ⟨S100000x128, .f32⟩
  | .hbm, ⟨18, _⟩ => ⟨S1600000x1, .i32⟩
  | .hbm, ⟨19, _⟩ => ⟨S100000x128, .f32⟩
  | .hbm, ⟨20, _⟩ => ⟨S100000x128, .f32⟩
  | .hbm, ⟨21, _⟩ => ⟨S1x128, .f32⟩
  | .hbm, ⟨22, _⟩ => ⟨S100000x128, .f32⟩
  | .hbm, ⟨23, _⟩ => ⟨S100000x128, .f32⟩
  | .hbm, ⟨24, _⟩ => ⟨S100000x128, .f32⟩
  | .hbm, ⟨25, _⟩ => ⟨S_, .f32⟩
  | .hbm, ⟨26, _⟩ => ⟨S100000x128, .f32⟩
  | .hbm, ⟨27, _⟩ => ⟨S100000x128, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x128, .f32⟩
  | .hbm, ⟨37, _⟩ => ⟨S_, .f32⟩
  | .hbm, ⟨38, _⟩ => ⟨S100000x128, .f32⟩
  | .hbm, ⟨39, _⟩ => ⟨S1600000x1, .i32⟩
  | .hbm, ⟨40, _⟩ => ⟨S100000x128, .f32⟩
  | .hbm, ⟨41, _⟩ => ⟨S100000x128, .f32⟩
  | .hbm, ⟨42, _⟩ => ⟨S1x128, .f32⟩
  | .hbm, ⟨43, _⟩ => ⟨S100000x128, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S100000x128, .f32⟩
  | .hbm, ⟨48, _⟩ => ⟨S100000x128, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S100000x128, .f32⟩
  | .hbm, ⟨67, _⟩ => ⟨S_, .f32⟩
  | .hbm, ⟨68, _⟩ => ⟨S100000x128, .f32⟩
  | .hbm, ⟨69, _⟩ => ⟨S100000x128, .f32⟩
  | .hbm, ⟨70, _⟩ => ⟨S_, .i32⟩
  | .hbm, ⟨71, _⟩ => ⟨S1600000, .i32⟩
  | .hbm, ⟨72, _⟩ => ⟨S1600000, .i1⟩
  | .hbm, ⟨73, _⟩ => ⟨S_, .i32⟩
  | .hbm, ⟨74, _⟩ => ⟨S1600000, .i32⟩
  | .hbm, ⟨75, _⟩ => ⟨S1600000, .i32⟩
  | .hbm, ⟨76, _⟩ => ⟨S1600000, .i32⟩
  | .hbm, ⟨77, _⟩ => ⟨S1600000x1, .i32⟩
  | .hbm, ⟨78, _⟩ => ⟨S1600000x128, .f32⟩
  | .hbm, ⟨79, _⟩ => ⟨S_, .f32⟩
  | .hbm, ⟨80, _⟩ => ⟨S100000x128, .f32⟩
  | .hbm, ⟨81, _⟩ => ⟨S1600000x1, .i32⟩
  | .hbm, ⟨82, _⟩ => ⟨S100000x128, .f32⟩
  | .hbm, ⟨83, _⟩ => ⟨S100000x128, .f32⟩
  | .hbm, ⟨84, _⟩ => ⟨S1x128, .f32⟩
  | .hbm, ⟨85, _⟩ => ⟨S100000x128, .f32⟩
  | .hbm, ⟨86, _⟩ => ⟨S100000x128, .f32⟩
  | .hbm, ⟨87, _⟩ => ⟨S100000x128, .f32⟩
  | .hbm, ⟨88, _⟩ => ⟨S_, .f32⟩
  | .hbm, ⟨89, _⟩ => ⟨S100000x128, .f32⟩
  | .hbm, ⟨90, _⟩ => ⟨S100000x128, .f32⟩
  | .hbm, ⟨91, _⟩ => ⟨S100000x128, .f32⟩
  | .hbm, ⟨92, _⟩ => ⟨S1x128, .f32⟩
  | .hbm, ⟨93, _⟩ => ⟨S100000x128, .f32⟩
  | .hbm, ⟨94, _⟩ => ⟨S100000x128, .f32⟩
  | .hbm, ⟨95, _⟩ => ⟨S_, .f32⟩
  | .hbm, ⟨96, _⟩ => ⟨S100000x128, .f32⟩
  | .hbm, ⟨97, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_call0_cst : Ref sig .tc := ⟨.hbm, 25, rfl⟩
abbrev main_call0_v0 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_0 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_1 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_call1_cst : Ref sig .tc := ⟨.hbm, 46, rfl⟩
abbrev main_call1_v0 : Ref sig .tc := ⟨.hbm, 47, rfl⟩
abbrev main_v28 : Ref sig .tc := ⟨.hbm, 48, rfl⟩
abbrev main_c_2 : Ref sig .tc := ⟨.hbm, 49, rfl⟩
abbrev main_v29 : Ref sig .tc := ⟨.hbm, 50, rfl⟩
abbrev main_v30 : Ref sig .tc := ⟨.hbm, 51, rfl⟩
abbrev main_c_3 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_4 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_call2_cst : Ref sig .tc := ⟨.hbm, 67, rfl⟩
abbrev main_call2_v0 : Ref sig .tc := ⟨.hbm, 68, rfl⟩
abbrev main_v44 : Ref sig .tc := ⟨.hbm, 69, rfl⟩
abbrev main_c_5 : Ref sig .tc := ⟨.hbm, 70, rfl⟩
abbrev main_v45 : Ref sig .tc := ⟨.hbm, 71, rfl⟩
abbrev main_v46 : Ref sig .tc := ⟨.hbm, 72, rfl⟩
abbrev main_c_6 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_7 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_call3_cst : Ref sig .tc := ⟨.hbm, 88, rfl⟩
abbrev main_call3_v0 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_call4_cst : Ref sig .tc := ⟨.hbm, 95, rfl⟩
abbrev main_call4_v0 : Ref sig .tc := ⟨.hbm, 96, rfl⟩
abbrev main_v65 : Ref sig .tc := ⟨.hbm, 97, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S1600000x128_0_1 : S1x128.BroadcastsInDim S1600000x128 (![0, 1] : Fin 2 → Fin S1600000x128.rank)
  bcast_S_S100000x128 : S_.BroadcastsInDim S100000x128 (![] : Fin 0 → Fin S100000x128.rank)
  bcast_S1600000_S1600000x1_0 : S1600000.BroadcastsInDim S1600000x1 (![0] : Fin 1 → Fin S1600000x1.rank)
  bcast_S1x128_S100000x128_0_1 : S1x128.BroadcastsInDim S100000x128 (![0, 1] : Fin 2 → Fin S100000x128.rank)
  bcast_S_S1600000 : S_.BroadcastsInDim S1600000 (![] : Fin 0 → Fin S1600000.rank)
  dot_S1600000x64_S64x128_S1600000x128_1_0_0_1_n_n_wf : DotDims.WF S1600000x64 S64x128 S1600000x128 [1] [0] [0] [1] [] []
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]

variable [Facts₀]

def dot_S1600000x64_S64x128_S1600000x128_1_0_0_1_n_n : DotDims S1600000x64 S64x128 S1600000x128 where
  lhsContracting := [1]
  rhsContracting := [0]
  lhsNonContracting := [0]
  rhsNonContracting := [1]
  lhsBatch := []
  rhsBatch := []
  wf := dot_S1600000x64_S64x128_S1600000x128_1_0_0_1_n_n_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf

class Facts : Prop extends Facts₀ where

variable [Facts]
-- ==== Proof.LibDotRowsCols.lean ====
/-
  A product of an array of rows with an array of columns, read at one entry.

  For dimension numbers that contract the left operand's axis 1 with the right operand's axis 0, keep the left
  operand's axis 0 and the right operand's axis 1, and batch nothing — the plain product  l · w  of an [n × K] array
  with a [K × c] array — the operand indices at result entry (r, v) and contraction position q are (r, q) and (q, v).
  So both the accumulate-into-zero `tpu.matmul` and the host's `dot_general` are, at the ideal values, the entry's
  plain sum  ∑ q < K, l (r, q) · w (q, v)  over the shared axis: the same extended real whatever the number of rows of
  the left operand. This identifies a product computed a block of the left operand's rows at a time with the whole
  product.
-/
import Idealize.ShloMosaic.PureOps.Ideal.Laws
import Idealize.ShloMosaic.Lib.ValueIdx

noncomputable section

open scoped BigOperators

namespace Cert.Lib.DotRowsCols

open Idealize.ShloMosaic Idealize.ShloMosaic.ValueIdx

variable {n K c : Nat}

/-- Dimension numbers of a rows-by-columns product [n, K] × [K, c] → [n, c]: contract left axis 1 with right axis 0,
    result rows from the left operand's rows, result columns from the right operand's columns, no batch axis. -/
structure RowsCols (d : DotDims ⟨2, ![n, K]⟩ ⟨2, ![K, c]⟩ ⟨2, ![n, c]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![n, K]⟩ ⟨2, ![K, c]⟩ ⟨2, ![n, c]⟩}

/-- Reading a multi-index at two equal positions gives the same coordinate. -/
private theorem val_congr {s : Shape} (j : s.Idx) (p q : Nat) (hp : p < s.rank) (hq : q < s.rank) (h : p = q) :
    (j ⟨p, hp⟩).val = (j ⟨q, hq⟩).val := by subst h; rfl

/-- One axis is contracted. -/
theorem RowsCols.rank_contr (h : RowsCols d) : d.contr.rank = 1 := by rw [d.rank_contr, h.lc]; rfl

/-- The contracted axis has the shared length K. -/
theorem RowsCols.size_contr (h : RowsCols d) : d.contr.size ⟨0, by rw [h.rank_contr]; exact Nat.one_pos⟩ = K := by
  have := d.size_contr 0 (by rw [h.lc]; exact Nat.one_pos)
  rw [this]; simp only [h.lc]; rfl

/-- The left operand's row is the result's row. -/
theorem RowsCols.lhs_row (h : RowsCols d) (j : (⟨2, ![n, c]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact val_congr j _ _ _ _ (by simp [h.lb, h.ln])

/-- The left operand's column is the contraction position. -/
theorem RowsCols.lhs_col (h : RowsCols d) (j : (⟨2, ![n, c]⟩ : Shape).Idx) (k : d.contr.Idx) :
    (d.lhsIdx j k 1).val = (k ⟨0, by rw [h.rank_contr]; exact Nat.one_pos⟩).val :=
  d.lhsIdx_val_of_single h.lc j k

/-- The right operand's row is the contraction position. -/
theorem RowsCols.rhs_row (h : RowsCols d) (j : (⟨2, ![n, c]⟩ : Shape).Idx) (k : d.contr.Idx) :
    (d.rhsIdx j k 0).val = (k ⟨0, by rw [h.rank_contr]; exact Nat.one_pos⟩).val :=
  d.rhsIdx_val_of_single h.rc j k

/-- The right operand's column is the result's column: its axis 1 is kept, and comes after the left operand's one
    kept axis among the result's axes. -/
theorem RowsCols.rhs_col (h : RowsCols d) (j : (⟨2, ![n, c]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact val_congr j _ _ _ _ (by simp [h.lb, h.ln, h.rn])

/-- The contraction's sum, re-indexed by the shared axis: ∑ q < K, l (r, q) · w (q, v). -/
theorem RowsCols.sum_eq (h : RowsCols d) (l : (⟨2, ![n, K]⟩ : Shape).Idx → EReal) (w : (⟨2, ![K, c]⟩ : Shape).Idx → EReal)
    (j : (⟨2, ![n, c]⟩ : Shape).Idx) :
    ∑ k : d.contr.Idx, l (d.lhsIdx j k) * w (d.rhsIdx j k) = ∑ q : Fin K, l (ix2 (j 0) q) * w (ix2 q (j 1)) := by
  -- the one contracted axis, of length K, is indexed by Fin K
  rw [← Equiv.sum_comp (contrEquiv1 d K h.rank_contr h.size_contr).symm]
  refine Finset.sum_congr rfl fun q _ => ?_
  have hk := contrEquiv1_symm_val d K h.rank_contr h.size_contr q
  -- left operand at (result row, q)
  have e1 : d.lhsIdx j ((contrEquiv1 d K h.rank_contr h.size_contr).symm q) = ix2 (j 0) q := by
    funext a
    match a with
    | ⟨0, _⟩ => exact Fin.ext (h.lhs_row j _)
    | ⟨1, _⟩ => exact Fin.ext ((h.lhs_col j _).trans hk)
  -- right operand at (q, result column)
  have e2 : d.rhsIdx j ((contrEquiv1 d K h.rank_contr h.size_contr).symm q) = ix2 q (j 1) := by
    funext a
    match a with
    | ⟨0, _⟩ => exact Fin.ext ((h.rhs_row j _).trans hk)
    | ⟨1, _⟩ => exact Fin.ext (h.rhs_col j _)
  exact congrArg₂ (· * ·) (congrArg l e1) (congrArg w e2)

/-- `tpu.matmul` into the zero accumulator, at an entry, at the ideal values (operands of any float formats). -/
theorem RowsCols.matmul_zero_apply {φ₁ φ₂ : FTy} (h : RowsCols d) (prec : Option ContractPrecision)
    (l : FVec Ideal ⟨2, ![n, K]⟩ φ₁) (w : FVec Ideal ⟨2, ![K, c]⟩ φ₂) (j : (⟨2, ![n, c]⟩ : Shape).Idx) :
    matmul (F := Ideal) d prec l w (constant ⟨2, ![n, c]⟩ .f32 0x00000000#32) j
      = ∑ q : Fin K, l (ix2 (j 0) q) * w (ix2 q (j 1)) :=
  (Ideal.matmul_constant_zero_apply d prec l w j).trans (h.sum_eq l w j)

/-- The host's `dot_general`, at an entry, at the ideal values. -/
theorem RowsCols.dotGeneral_apply {φ₁ φ₂ : FTy} (h : RowsCols d) (prec : Option ContractPrecision)
    (l : FVec Ideal ⟨2, ![n, K]⟩ φ₁) (w : FVec Ideal ⟨2, ![K, c]⟩ φ₂) (j : (⟨2, ![n, c]⟩ : Shape).Idx) :
    Host.dotGeneral (F := Ideal) d prec l w j = ∑ q : Fin K, l (ix2 (j 0) q) * w (ix2 q (j 1)) :=
  (Ideal.dotGeneral_apply d prec .single l w j).trans (h.sum_eq l w j)

end Cert.Lib.DotRowsCols

end
-- ==== Proof.Spec.lean ====
/-
  The network's dense layers as functions of whole arrays of extended reals, index by index, and the two readings
  that bring a program's text to them.

  A dense layer is  X · W + b  with the bias a one-row array: entry (r, v) is  (∑ q, X (r, q) · W (q, v)) + b (0, v).
  The activation is  max(·, 0)  entrywise. The message-passing network is, with an aggregation map `pool` from
  edge rows to node rows and a neighbourhood map `nbr` from node rows to node rows (both left abstract here: the two
  programs apply the same index operations, so they never have to be opened):

      EL  = EF · We + be                      IM = (NF · Wn + bn) + pool EL          H₀ = max(IM, 0)
      Hₖ₊₁ = max((nbr Hₖ · Wc + bc) + IM, 0)   (three rounds)                         out = max(H₃ · Wo + bo, 0)

  A block of rows of the left operand gives the same rows of the product, since entry (r, v) reads only row r of the
  left operand: so a product computed a block of rows at a time is the whole product, and rounding the operands to a
  narrower float format on the way in is the identity on extended reals.
-/
import Idealize.ShloMosaic.PureOps.Ideal.Laws
import Idealize.ShloMosaic.Lib.ValueIdx
import Idealize.ShloMosaic.Lib.Pipeline.Value
import proofs.«181511_j42279658062025_1_alg».proof.Proof.LibDotRowsCols

noncomputable section

open scoped BigOperators

namespace Cert.Gnn

open Idealize.ShloMosaic Idealize.ShloMosaic.ValueIdx Cert.Lib.DotRowsCols

/-- An n × c array of extended reals. -/
abbrev Mat (n c : Nat) : Type := (⟨2, ![n, c]⟩ : Shape).Idx → EReal

/-- A length-c vector of extended reals. -/
abbrev Vec1 (c : Nat) : Type := (⟨1, ![c]⟩ : Shape).Idx → EReal

/-- A vector laid out as a one-row array. -/
def row {c : Nat} (b : Vec1 c) : Mat 1 c := fun j => b (ix1 (j 1))

/-- The dense layer X · W + b, the bias a one-row array added to every row. -/
def affine {n K c : Nat} (X : Mat n K) (W : Mat K c) (b : Mat 1 c) : Mat n c :=
  fun j => (∑ q : Fin K, X (ix2 (j 0) q) * W (ix2 q (j 1))) + b (ix2 0 (j 1))

/-- The dense layer plus a residual array of the result's shape. -/
def affineRes {n K c : Nat} (X : Mat n K) (W : Mat K c) (b : Mat 1 c) (R : Mat n c) : Mat n c :=
  fun j => affine X W b j + R j

/-- The activation max(·, 0), entrywise. -/
def relu {n c : Nat} (X : Mat n c) : Mat n c := fun j => max (X j) 0

/-- The whole network over abstract aggregation maps. -/
def net {N E Fn Fe c : Nat} (pool : Mat E c → Mat N c) (nbr : Mat N c → Mat N c)
    (NF : Mat N Fn) (EF : Mat E Fe) (Wn : Mat Fn c) (bn : Mat 1 c) (We : Mat Fe c) (be : Mat 1 c)
    (Wc : Mat c c) (bc : Mat 1 c) (Wo : Mat c c) (bo : Mat 1 c) : Mat N c :=
  let IM : Mat N c := affineRes NF Wn bn (pool (affine EF We be))
  let step : Mat N c → Mat N c := fun H => relu (affineRes (nbr H) Wc bc IM)
  relu (affine (step (step (step (relu IM)))) Wo bo)

/-! ## A kernel block's arithmetic -/

/-- A one-row bias broadcast down the rows, read at an entry: the bias at the entry's column. -/
theorem bias_bcast_apply {n c : Nat} (b : Mat 1 c) (hs : (⟨2, ![1, c]⟩ : Shape).ShapeCasts ⟨2, ![1, c]⟩)
    (hb : (⟨2, ![1, c]⟩ : Shape).Broadcasts ⟨2, ![n, c]⟩) (j : (⟨2, ![n, c]⟩ : Shape).Idx) :
    broadcastTo ⟨2, ![n, c]⟩ (shapeCast ⟨2, ![1, c]⟩ b hs) hb j = b (ix2 0 (j 1)) := by
  rw [shapeCast_self]
  refine broadcastTo_apply b hb j (ix2 0 (j 1)) fun a => ?_
  match a with
  | ⟨0, _⟩ => rfl
  | ⟨1, _⟩ =>
    show (j 1).val = if c = 1 then 0 else (j 1).val
    split
    · have := (j 1).isLt; rename_i h1; subst h1; exact Nat.lt_one_iff.mp this
    · rfl

/-- The product into a zero accumulator of the operands rounded to a narrower format, plus the broadcast bias:
    the dense layer on the block. -/
theorem affine_block {n K c : Nat} (d : DotDims ⟨2, ![n, K]⟩ ⟨2, ![K, c]⟩ ⟨2, ![n, c]⟩) (hd : RowsCols d)
    {ψ : FTy} (h1 : ψ.bits < FTy.f32.bits)
    (x : FVec Ideal ⟨2, ![n, K]⟩ .f32) (w : FVec Ideal ⟨2, ![K, c]⟩ .f32) (b : FVec Ideal ⟨2, ![1, c]⟩ .f32)
    (hs : (⟨2, ![1, c]⟩ : Shape).ShapeCasts ⟨2, ![1, c]⟩) (hb : (⟨2, ![1, c]⟩ : Shape).Broadcasts ⟨2, ![n, c]⟩) :
    addf (matmul (F := Ideal) d none (truncf ψ x h1) (truncf ψ w h1) (constant ⟨2, ![n, c]⟩ .f32 0x00000000#32))
        (broadcastTo ⟨2, ![n, c]⟩ (shapeCast ⟨2, ![1, c]⟩ b hs) hb)
      = affine x w b := by
  funext j
  rw [addf_apply, hd.matmul_zero_apply, bias_bcast_apply]
  rfl

/-- max with a broadcast zero scalar is the activation. -/
theorem relu_block {n c : Nat} (x : FVec Ideal ⟨2, ![n, c]⟩ .f32) :
    maximumf x (broadcast ⟨2, ![n, c]⟩ (Scalar.ofBits (F := Ideal) .f32 0x00000000#32)) = relu x := by
  funext j
  rw [maximumf_apply, broadcast_apply]
  show max (x j) (Ideal.ofBits .f32 0x00000000#32) = max (x j) 0
  rw [Ideal.ofBits_zero_f32]

end Cert.Gnn

end
-- ==== Proof.SpecHost.lean ====
/-
  The reference's text for a dense layer and for the activation, as whole arrays.

  The host writes the dense layer as the contraction  X · W  (left axis 1 against right axis 0) plus the bias vector
  laid out as one row and repeated down the rows; entry (r, v) is again  (∑ q, X (r, q) · W (q, v)) + b v.  Its
  activation is the maximum with the zero scalar repeated over the array.  The vector laid out as one row is what a
  row-major reshape of it to [1, c] gives, so the kernel's reshaped bias and the reference's broadcast bias are the
  same one-row array.
-/
import proofs.«181511_j42279658062025_1_alg».proof.Proof.Spec

noncomputable section

open scoped BigOperators

namespace Cert.Gnn

open Idealize.ShloMosaic Idealize.ShloMosaic.ValueIdx Cert.Lib.DotRowsCols

/-- A vector placed along axis 1 of a one-row array. -/
theorem bcast_row {c : Nat} (b : Vec1 c) (h : (⟨1, ![c]⟩ : Shape).BroadcastsInDim ⟨2, ![1, c]⟩ ![1]) :
    broadcastInDim ⟨2, ![1, c]⟩ ![1] h b = row b := by
  funext j
  refine (broadcastInDim_apply ![1] h b j (ix1 (j 1)) fun a => ?_)
  match a with
  | ⟨0, _⟩ =>
    show (j 1).val = if c = 1 then 0 else (j 1).val
    split
    · have := (j 1).isLt; rename_i h1; subst h1; exact Nat.lt_one_iff.mp this
    · rfl

/-- A vector reshaped row-major to a one-row array. -/
theorem reshape_row {c : Nat} (b : Vec1 c) (h : (⟨1, ![c]⟩ : Shape).ShapeCasts ⟨2, ![1, c]⟩) :
    shapeCast ⟨2, ![1, c]⟩ b h = row b := by
  funext j
  refine shapeCast_apply b h j (ix1 (j 1)) ?_
  rw [Shape.rowMajor_val_one, Shape.rowMajor_val_two]
  have h0 : (j 0).val = 0 := Nat.lt_one_iff.mp (j 0).isLt
  show (j 1).val = (j 0).val * c + (j 1).val
  rw [h0, Nat.zero_mul, Nat.zero_add]

/-- A one-row array repeated down n rows, read at an entry. -/
theorem bcast_rows_apply {n c : Nat} (b : Mat 1 c) (h : (⟨2, ![1, c]⟩ : Shape).BroadcastsInDim ⟨2, ![n, c]⟩ ![0, 1])
    (j : (⟨2, ![n, c]⟩ : Shape).Idx) : broadcastInDim ⟨2, ![n, c]⟩ ![0, 1] h b j = b (ix2 0 (j 1)) := by
  refine (broadcastInDim_apply ![0, 1] h b j (ix2 0 (j 1)) fun a => ?_)
  match a with
  | ⟨0, _⟩ => rfl
  | ⟨1, _⟩ =>
    show (j 1).val = if c = 1 then 0 else (j 1).val
    split
    · have := (j 1).isLt; rename_i h1; subst h1; exact Nat.lt_one_iff.mp this
    · rfl

/-- The host's dense layer: the contraction plus the bias vector broadcast to one row and then down the rows. -/
theorem affine_host {n K c : Nat} (d : DotDims ⟨2, ![n, K]⟩ ⟨2, ![K, c]⟩ ⟨2, ![n, c]⟩) (hd : RowsCols d)
    (X : FVec Ideal ⟨2, ![n, K]⟩ .f32) (W : FVec Ideal ⟨2, ![K, c]⟩ .f32) (b : FVec Ideal ⟨1, ![c]⟩ .f32)
    (h1 : (⟨1, ![c]⟩ : Shape).BroadcastsInDim ⟨2, ![1, c]⟩ ![1])
    (h2 : (⟨2, ![1, c]⟩ : Shape).BroadcastsInDim ⟨2, ![n, c]⟩ ![0, 1]) :
    addf (Host.dotGeneral (F := Ideal) d none X W)
        (broadcastInDim ⟨2, ![n, c]⟩ ![0, 1] h2 (broadcastInDim ⟨2, ![1, c]⟩ ![1] h1 b))
      = affine X W (row b) := by
  funext j
  rw [addf_apply, hd.dotGeneral_apply, bcast_rows_apply, bcast_row]
  rfl

/-- The host's activation: the maximum with the zero scalar repeated over the array. -/
theorem relu_host {n c : Nat} (x : FVec Ideal ⟨2, ![n, c]⟩ .f32)
    (h : (⟨0, ![]⟩ : Shape).BroadcastsInDim ⟨2, ![n, c]⟩ ![]) :
    maximumf x (broadcastInDim ⟨2, ![n, c]⟩ ![] h (constant (F := Ideal) ⟨0, ![]⟩ .f32 0x00000000#32)) = relu x := by
  funext j
  rw [maximumf_apply, broadcastInDim_apply ![] h _ j ix0 (fun a => a.elim0), constant_apply,
    Ideal.ofBits_zero_f32]
  rfl

end Cert.Gnn

end
-- ==== Proof.Glue.lean ====
/-
  The two index-driven maps the network is built over, as the host operations spell them.

  `pool` adds each edge's row of an [E, c] array into the row of an [N, c] array of zeros named by the edge's
  destination word: a node's row is the sum of the rows of the edges that point to it.  `nbr` first reads, for each
  edge, the row of a node array named by the edge's source word (a negative word first raised by the node count),
  then pools those rows by destination: a node's row is the sum of its in-neighbours' rows.  Both programs apply
  exactly these operations to the same index words, so the certificate never has to open them.
-/
import proofs.«181511_j42279658062025_1_alg».proof.Proof.Spec

noncomputable section

namespace Cert.Gnn

open Idealize.ShloMosaic

variable {N E c : Nat}

/-- Rows of an edge array summed into the node row each edge's destination word names, from zeros. -/
def pool (sd : ScatterDims ⟨2, ![N, c]⟩ ⟨2, ![E, 1]⟩ ⟨2, ![E, c]⟩)
    (hz : (⟨0, ![]⟩ : Shape).BroadcastsInDim ⟨2, ![N, c]⟩ ![])
    (hi : (⟨1, ![E]⟩ : Shape).BroadcastsInDim ⟨2, ![E, 1]⟩ ![0])
    (dst : IVec ⟨1, ![E]⟩ 32) (U : Mat E c) : Mat N c :=
  Host.scatterAdd (F := Ideal) sd (broadcastInDim ⟨2, ![N, c]⟩ ![] hz (constant ⟨0, ![]⟩ .f32 0x00000000#32))
    (broadcastInDim ⟨2, ![E, 1]⟩ ![0] hi dst) U

/-- The source words as a column, a negative word raised by `nw` first. -/
def srcCol (hs : (⟨0, ![]⟩ : Shape).BroadcastsInDim ⟨1, ![E]⟩ ![])
    (hi : (⟨1, ![E]⟩ : Shape).BroadcastsInDim ⟨2, ![E, 1]⟩ ![0]) (nw : BitVec 32)
    (src : IVec ⟨1, ![E]⟩ 32) : IVec ⟨2, ![E, 1]⟩ 32 :=
  broadcastInDim ⟨2, ![E, 1]⟩ ![0] hi
    (select (cmpi .slt src (broadcastInDim ⟨1, ![E]⟩ ![] hs (constantI ⟨0, ![]⟩ 32 0#32)))
      (addi src (broadcastInDim ⟨1, ![E]⟩ ![] hs (constantI ⟨0, ![]⟩ 32 nw))) src)

/-- Each node's in-neighbours' rows summed: the rows read by source word, pooled by destination word. -/
def nbr (gd : GatherDims ⟨2, ![N, c]⟩ ⟨2, ![E, 1]⟩ ⟨2, ![E, c]⟩)
    (sd : ScatterDims ⟨2, ![N, c]⟩ ⟨2, ![E, 1]⟩ ⟨2, ![E, c]⟩)
    (hz : (⟨0, ![]⟩ : Shape).BroadcastsInDim ⟨2, ![N, c]⟩ ![])
    (hi : (⟨1, ![E]⟩ : Shape).BroadcastsInDim ⟨2, ![E, 1]⟩ ![0])
    (hs : (⟨0, ![]⟩ : Shape).BroadcastsInDim ⟨1, ![E]⟩ ![]) (nw : BitVec 32)
    (src dst : IVec ⟨1, ![E]⟩ 32) (H : Mat N c) : Mat N c :=
  pool sd hz hi dst (Host.gather gd H (srcCol hs hi nw src))

end Cert.Gnn

end
-- ==== Proof.Region0.lean ====
/-
  Region 0, the edge layer: what its output array holds after the region, as one function of the arrays it finds.

  The grid has 100 points; point t stages rows t·16000 … t·16000 + 15999 of the edge features, the whole weight and the
  whole one-row bias, and writes back the same rows of the output.  On a block the body computes the dense layer of
  the block; entry (r, v) of a dense layer reads only row r of the left operand, so block t of the result is block t
  of the dense layer of the whole arrays, and the 100 blocks tile the output's rows.
-/
import proofs.«181511_j42279658062025_1_alg».proof.Proof.Gen.KernelIdeal.Frame
import proofs.«181511_j42279658062025_1_alg».proof.Proof.Spec
import Idealize.ShloMosaic.Lib.Pipeline.Value

set_option maxRecDepth 16384

noncomputable section

namespace Cert.KernelIdeal.Val

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

/-- The zero offsets of a store or load that spans its whole buffer. -/
theorem zero_offsets : (![0, 0] : Fin 2 → Nat) = fun _ => 0 := funext fun a => by fin_cases a <;> rfl

/-- The block's arithmetic is the dense layer on the block: the product of the operands rounded to a narrower
    format into a zero accumulator, plus the one-row bias broadcast down the rows. -/
theorem edge_pay_eq (x0 : Vec Ideal S16000x64 .f32) (x1 : Vec Ideal S64x128 .f32) (x2 : Vec Ideal S1x128 .f32) :
    k0_pay1 x0 x1 x2 = Cert.Gnn.affine x0 x1 x2 := by
  unfold k0_pay1
  exact Cert.Gnn.affine_block _ ⟨rfl, rfl, rfl, rfl, rfl, rfl⟩ _ x0 x1 x2 _ _

/-- The block index maps over the grid: the edge-row windows (the left operand's and the output's) sit at row block
    t and column block 0 at point t; the weight's and the bias's windows are the whole arrays at every point. -/
theorem edge_idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The left operand's block at point t, read at (r, q), is entry (t·16000 + r, q) of the edge-feature array. -/
theorem edge_lhs_blk_apply (c : Dev nD) (t : Fin cfg0.N) (y : S16000x64.Idx) (k : S1600000x64.Idx)
    (hk0 : (k 0).val = t.val * 16000 + (y 0).val) (hk1 : (k 1).val = (y 1).val) :
    (iblk0 V c 0 t : Vec Ideal S16000x64 .f32) y = (V c main_arg1 : S1600000x64.Idx → EReal) k := by
  obtain ⟨e0, e1, -, -, -, -, -, -⟩ := edge_idx_facts t
  unfold iblk0
  rw [View.read_apply]
  show V c main_arg1 _ = V c main_arg1 _
  congr 1
  funext a
  apply Fin.ext
  match a with
  | ⟨0, _⟩ => show win0_0.index t 0 * 16000 + 1 * (y 0).val = (k 0).val; rw [e0, hk0]; omega
  | ⟨1, _⟩ => show win0_0.index t 1 * 64 + 1 * (y 1).val = (k 1).val; rw [e1, hk1]; omega

/-- The weight's block at every point is the whole weight array. -/
theorem edge_w_blk_apply (c : Dev nD) (t : Fin cfg0.N) (y : S64x128.Idx) :
    (iblk0 V c 1 t : Vec Ideal S64x128 .f32) y = (V c main_arg6 : S64x128.Idx → EReal) y := by
  obtain ⟨-, -, e0, e1, -, -, -, -⟩ := edge_idx_facts t
  unfold iblk0
  rw [View.read_apply]
  show V c main_arg6 _ = V c main_arg6 _
  congr 1
  funext a
  apply Fin.ext
  match a with
  | ⟨0, _⟩ => show win0_1.index t 0 * 64 + 1 * (y 0).val = (y 0).val; rw [e0]; omega
  | ⟨1, _⟩ => show win0_1.index t 1 * 128 + 1 * (y 1).val = (y 1).val; rw [e1]; omega

/-- The bias's block at every point is the whole one-row bias array. -/
theorem edge_b_blk_apply (c : Dev nD) (t : Fin cfg0.N) (y : S1x128.Idx) :
    (iblk0 V c 2 t : Vec Ideal S1x128 .f32) y = (V c main_v0 : S1x128.Idx → EReal) y := by
  obtain ⟨-, -, -, -, e0, e1, -, -⟩ := edge_idx_facts t
  unfold iblk0
  rw [View.read_apply]
  show V c main_v0 _ = V c main_v0 _
  congr 1
  funext a
  apply Fin.ext
  match a with
  | ⟨0, _⟩ => show win0_2.index t 0 * 1 + 1 * (y 0).val = (y 0).val; rw [e0]; omega
  | ⟨1, _⟩ => show win0_2.index t 1 * 128 + 1 * (y 1).val = (y 1).val; rw [e1]; omega

/-- What point t writes back is block t of the dense layer of the whole arrays: entry (r, v) of the block's
    layer reads row r of the left operand's block, which is row t·16000 + r of the edge-feature array, and the
    whole weight and bias. -/
theorem edge_flushed_eq (c : Dev nD) (t : Fin cfg0.N) :
    (dat0 (F := Ideal) V c).flushed 3 t
      = ((cfg0.win 3).blk t).view.read (Elt Ideal) (Cert.Gnn.affine (V c main_arg1) (V c main_arg6) (V c main_v0)) := by
  show (cfg0.win 3).cut (grid0.coords t) ((dat0 V c).after 3 t) = _
  rw [after0_3]
  unfold out0_3
  rw [View.canon_unit_zero zero_offsets]
  simp only [View.ld_unit_zero (S := S16000x64) zero_offsets, View.ld_unit_zero (S := S64x128) zero_offsets,
    View.ld_unit_zero (S := S1x128) zero_offsets]
  rw [edge_pay_eq]
  obtain ⟨-, -, -, -, -, -, e0, e1⟩ := edge_idx_facts t
  funext j
  show Cert.Gnn.affine (iblk0 V c 0 t : Vec Ideal S16000x64 .f32) (iblk0 V c 1 t : Vec Ideal S64x128 .f32)
        (iblk0 V c 2 t : Vec Ideal S1x128 .f32) j
      = Cert.Gnn.affine (V c main_arg1) (V c main_arg6) (V c main_v0) (((cfg0.win 3).blk t).view.emb j)
  unfold Cert.Gnn.affine
  have hj0 : (((cfg0.win 3).blk t).view.emb j 0).val = t.val * 16000 + (j 0).val := by
    show win0_3.index t 0 * 16000 + 1 * (j 0).val = _; rw [e0]; omega
  have hj1 : (((cfg0.win 3).blk t).view.emb j 1).val = (j 1).val := by
    show win0_3.index t 1 * 128 + 1 * (j 1).val = _; rw [e1]; omega
  congr 1
  · refine Finset.sum_congr rfl fun q _ => ?_
    congr 1
    · exact edge_lhs_blk_apply V c t _ _ hj0 rfl
    · rw [edge_w_blk_apply]
      congr 1
      funext a
      match a with
      | ⟨0, _⟩ => rfl
      | ⟨1, _⟩ => exact Fin.ext hj1.symm
  · rw [edge_b_blk_apply]
    congr 1
    funext a
    match a with
    | ⟨0, _⟩ => rfl
    | ⟨1, _⟩ => exact Fin.ext hj1.symm

/-- An index of the output array is in point t's block iff each coordinate is in the block's range on its axis. -/
theorem edge_mem_blk (t : Fin cfg0.N) (i : S1600000x128.Idx) :
    i ∈ ((cfg0.win 3).blk t).view.set ↔ ∀ a : Fin 2, win0_3.index t a * S16000x128.size a ≤ (i a).val ∧ (i a).val < win0_3.index t a * S16000x128.size a + S16000x128.size a := by
  show i ∈ ((View.whole main_v1).slice (win0_3.rect t)).set ↔ _
  rw [View.set_slice_whole, Rect.mem_set_unit]
  exact Iff.rfl

/-- Every row of the output array is in some point's block: row r is in the block of point r / 16000. -/
theorem edge_cover (i : S1600000x128.Idx) :
    ∃ t : Fin cfg0.N, (cfg0.win 3).flush t = true ∧ i ∈ ((cfg0.win 3).blk t).view.set := by
  have hi0 : (i 0).val < 1600000 := (i 0).isLt
  have hi1 : (i 1).val < 128 := (i 1).isLt
  have hN : cfg0.N = 100 := N_0
  let t : Fin cfg0.N := ⟨(i 0).val / 16000, by rw [hN]; omega⟩
  obtain ⟨-, -, -, -, -, -, e0, e1⟩ := edge_idx_facts t
  have ht : t.val = (i 0).val / 16000 := rfl
  refine ⟨t, flush0_3 t, ?_⟩
  rw [edge_mem_blk]
  intro a
  match a with
  | ⟨0, _⟩ => show win0_3.index t (0 : Fin 2) * 16000 ≤ (i 0).val ∧ (i 0).val < win0_3.index t (0 : Fin 2) * 16000 + 16000; rw [e0, ht]; omega
  | ⟨1, _⟩ => show win0_3.index t (1 : Fin 2) * 128 ≤ (i 1).val ∧ (i 1).val < win0_3.index t (1 : Fin 2) * 128 + 128; rw [e1]; omega

/-- Region 0 leaves the dense layer of the edge features in its output array. -/
theorem region0 (c : Dev nD) :
    (dat0 (F := Ideal) V c).arrAt 3 cfg0.N = Cert.Gnn.affine (V c main_arg1) (V c main_arg6) (V c main_v0) :=
  (dat0 (F := Ideal) V c).arrAt_eq_of_cover 3 (Cert.Gnn.affine (V c main_arg1) (V c main_arg6) (V c main_v0))
    (fun t _ => edge_flushed_eq V c t) edge_cover

end Cert.KernelIdeal.Val

end
-- ==== Proof.Region1.lean ====
/-
  Region 1, the node update: what its two output arrays hold after the region, as functions of the arrays it finds.

  The grid has 20 points; point t stages rows t·5000 … t·5000 + 4999 of the node features and of the pooled edge
  layer, the whole weight and the whole one-row bias, and writes back the same rows of both outputs: the dense layer
  of the node features plus the pooled rows, and that sum's maximum with zero.  Each is entrywise in the row, so
  block t of either result is block t of the whole-array function, and the 20 blocks tile the rows.
-/
import proofs.«181511_j42279658062025_1_alg».proof.Proof.Gen.KernelIdeal.Frame
import proofs.«181511_j42279658062025_1_alg».proof.Proof.Spec
import Idealize.ShloMosaic.Lib.Pipeline.Value

set_option maxRecDepth 16384

noncomputable section

namespace Cert.KernelIdeal.Val

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

/-! Region 1, the node update, leaves two arrays of 100000 rows by 128 columns: the pre-activation sum
    (features · weights + bias) + residual, and its entrywise max with 0. The grid has 20 points; point t holds rows
    5000 t … 5000 t + 4999 of the feature, residual and both output arrays, and the whole weight and bias arrays.
    Entry (r, v) of the update reads only row r of the features and of the residual, so the update of point t's blocks
    is rows 5000 t … 5000 t + 4999 of the update of the whole arrays; the 20 blocks of rows tile each output array. -/

theorem zero_origin : (![0, 0] : Fin 2 → Nat) = fun _ => 0 := funext fun a => by fin_cases a <;> rfl

theorem pre_block (x0 : Vec Ideal S5000x128 .f32) (x1 : Vec Ideal S128x128 .f32) (x2 : Vec Ideal S1x128 .f32)
    (x3 : Vec Ideal S5000x128 .f32) :
    k1_pay1 x0 x1 x2 x3 = Cert.Gnn.affineRes x0 x1 x2 x3 := by
  unfold k1_pay1
  dsimp only
  rw [Cert.Gnn.affine_block (n := 5000) (K := 128) (c := 128) dot_S5000x128_S128x128_S5000x128_1_0_0_1_n_n ⟨rfl, rfl, rfl, rfl, rfl, rfl⟩, shapeCast_self]
  funext j
  rw [addf_apply]
  rfl

theorem act_block (x0 : Vec Ideal S5000x128 .f32) (x1 : Vec Ideal S128x128 .f32) (x2 : Vec Ideal S1x128 .f32)
    (x3 : Vec Ideal S5000x128 .f32) :
    k1_pay2 x0 x1 x2 x3 = Cert.Gnn.relu (Cert.Gnn.affineRes x0 x1 x2 x3) := by
  unfold k1_pay2
  dsimp only
  rw [pre_block, Cert.Gnn.relu_block]

theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- The node update on a block of rows of the node features and of the residual is the same rows of the node update
    on the whole arrays: entry (r, v) reads only row r of the features and of the residual. -/
theorem affineRes_rows (A : Cert.Gnn.Mat 100000 128) (W : Cert.Gnn.Mat 128 128) (B : Cert.Gnn.Mat 1 128)
    (R : Cert.Gnn.Mat 100000 128) (x0 : Cert.Gnn.Mat 5000 128) (x1 : Cert.Gnn.Mat 128 128) (x2 : Cert.Gnn.Mat 1 128)
    (x3 : Cert.Gnn.Mat 5000 128) (p : Nat)
    (h0 : ∀ (j : S5000x128.Idx) (i : S100000x128.Idx), (i 0).val = p * 5000 + (j 0).val → (i 1).val = (j 1).val → x0 j = A i)
    (h1 : x1 = W) (h2 : x2 = B)
    (h3 : ∀ (j : S5000x128.Idx) (i : S100000x128.Idx), (i 0).val = p * 5000 + (j 0).val → (i 1).val = (j 1).val → x3 j = R i)
    (j : S5000x128.Idx) (i : S100000x128.Idx) (hi0 : (i 0).val = p * 5000 + (j 0).val) (hi1 : (i 1).val = (j 1).val) :
    Cert.Gnn.affineRes x0 x1 x2 x3 j = Cert.Gnn.affineRes A W B R i := by
  subst h1 h2
  have e1 : j 1 = i 1 := Fin.ext hi1.symm
  unfold Cert.Gnn.affineRes Cert.Gnn.affine
  rw [h3 j i hi0 hi1, e1]
  congr 2
  refine Finset.sum_congr rfl fun q _ => ?_
  rw [h0 (ix2 (j 0) q) (ix2 (i 0) q) hi0 rfl]

/-- At point t the feature and residual windows hold rows 5000 t … 5000 t + 4999 of their arrays and the weight and
    bias windows hold their whole arrays, so the node update of the four blocks at (r, v) is the node update of the
    whole arrays at (5000 t + r, v). -/
theorem update_of_blocks (c : Dev nD) (t : Fin cfg1.N) (j : S5000x128.Idx) (i : S100000x128.Idx)
    (hi0 : (i 0).val = t.val * 5000 + (j 0).val) (hi1 : (i 1).val = (j 1).val) :
    Cert.Gnn.affineRes (iblk1 V c 0 t) (iblk1 V c 1 t) (iblk1 V c 2 t) (iblk1 V c 3 t) j
      = Cert.Gnn.affineRes (V c main_arg0) (V c main_arg4) (V c main_v5) (V c main_v4) i := by
  obtain ⟨a0, a1, b0, b1, c0, c1, d0, d1, -⟩ := idx_facts t
  refine affineRes_rows _ _ _ _ _ _ _ _ t.val ?_ ?_ ?_ ?_ j i hi0 hi1
  · intro y k hk0 hk1
    show V c main_arg0 (((cfg1.win 0).blk t).view.emb y) = V c main_arg0 k
    congr 1
    funext a; apply Fin.ext
    match a with
    | ⟨0, _⟩ => show win1_0.index t (0 : Fin 2) * 5000 + 1 * (y 0).val = (k 0).val; omega
    | ⟨1, _⟩ => show win1_0.index t (1 : Fin 2) * 128 + 1 * (y 1).val = (k 1).val; omega
  · funext y
    show V c main_arg4 (((cfg1.win 1).blk t).view.emb y) = V c main_arg4 y
    congr 1
    funext a; apply Fin.ext
    match a with
    | ⟨0, _⟩ => show win1_1.index t (0 : Fin 2) * 128 + 1 * (y 0).val = (y 0).val; omega
    | ⟨1, _⟩ => show win1_1.index t (1 : Fin 2) * 128 + 1 * (y 1).val = (y 1).val; omega
  · funext y
    show V c main_v5 (((cfg1.win 2).blk t).view.emb y) = V c main_v5 y
    congr 1
    funext a; apply Fin.ext
    match a with
    | ⟨0, _⟩ => show win1_2.index t (0 : Fin 2) * 1 + 1 * (y 0).val = (y 0).val; omega
    | ⟨1, _⟩ => show win1_2.index t (1 : Fin 2) * 128 + 1 * (y 1).val = (y 1).val; omega
  · intro y k hk0 hk1
    show V c main_v4 (((cfg1.win 3).blk t).view.emb y) = V c main_v4 k
    congr 1
    funext a; apply Fin.ext
    match a with
    | ⟨0, _⟩ => show win1_3.index t (0 : Fin 2) * 5000 + 1 * (y 0).val = (k 0).val; omega
    | ⟨1, _⟩ => show win1_3.index t (1 : Fin 2) * 128 + 1 * (y 1).val = (k 1).val; omega

/-- What point t writes back of the pre-activation sum: block t of the node update of the whole arrays. -/
theorem flushed_pre (c : Dev nD) (t : Fin cfg1.N) :
    (dat1 (F := Ideal) V c).flushed 4 t = ((cfg1.win 4).blk t).view.read (Elt Ideal)
      (Cert.Gnn.affineRes (V c main_arg0) (V c main_arg4) (V c main_v5) (V c main_v4)) := by
  show (cfg1.win 4).cut (grid1.coords t) ((dat1 V c).after 4 t) = _
  rw [after1_4]
  unfold out1_4
  rw [View.canon_unit_zero zero_origin]
  simp only [View.ld_unit_zero (S := S5000x128) zero_origin, View.ld_unit_zero (S := S128x128) zero_origin,
    View.ld_unit_zero (S := S1x128) zero_origin]
  refine (pre_block _ _ _ _).trans ?_
  obtain ⟨-, -, -, -, -, -, -, -, e0, e1, -⟩ := idx_facts t
  funext j
  show Cert.Gnn.affineRes (iblk1 V c 0 t) (iblk1 V c 1 t) (iblk1 V c 2 t) (iblk1 V c 3 t) j
      = Cert.Gnn.affineRes (V c main_arg0) (V c main_arg4) (V c main_v5) (V c main_v4) (((cfg1.win 4).blk t).view.emb j)
  refine update_of_blocks V c t j _ ?_ ?_
  · show win1_4.index t (0 : Fin 2) * 5000 + 1 * (j 0).val = t.val * 5000 + (j 0).val; omega
  · show win1_4.index t (1 : Fin 2) * 128 + 1 * (j 1).val = (j 1).val; omega

/-- What point t writes back of the activation: block t of the activation of the node update of the whole arrays. -/
theorem flushed_act (c : Dev nD) (t : Fin cfg1.N) :
    (dat1 (F := Ideal) V c).flushed 5 t = ((cfg1.win 5).blk t).view.read (Elt Ideal)
      (Cert.Gnn.relu (Cert.Gnn.affineRes (V c main_arg0) (V c main_arg4) (V c main_v5) (V c main_v4))) := by
  show (cfg1.win 5).cut (grid1.coords t) ((dat1 V c).after 5 t) = _
  rw [after1_5]
  unfold out1_5
  rw [View.canon_unit_zero zero_origin]
  simp only [View.ld_unit_zero (S := S5000x128) zero_origin, View.ld_unit_zero (S := S128x128) zero_origin,
    View.ld_unit_zero (S := S1x128) zero_origin]
  refine (act_block _ _ _ _).trans ?_
  obtain ⟨-, -, -, -, -, -, -, -, -, -, f0, f1⟩ := idx_facts t
  funext j
  show max (Cert.Gnn.affineRes (iblk1 V c 0 t) (iblk1 V c 1 t) (iblk1 V c 2 t) (iblk1 V c 3 t) j) 0
      = max (Cert.Gnn.affineRes (V c main_arg0) (V c main_arg4) (V c main_v5) (V c main_v4) (((cfg1.win 5).blk t).view.emb j)) 0
  congr 1
  refine update_of_blocks V c t j _ ?_ ?_
  · show win1_5.index t (0 : Fin 2) * 5000 + 1 * (j 0).val = t.val * 5000 + (j 0).val; omega
  · show win1_5.index t (1 : Fin 2) * 128 + 1 * (j 1).val = (j 1).val; omega

/-- An entry of the pre-activation array is in point t's block iff each coordinate is in the block's range. -/
theorem mem_blk_pre (t : Fin cfg1.N) (i : S100000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v6_0).slice (win1_4.rect t)).set ↔ _
  rw [View.set_slice_whole, Rect.mem_set_unit]
  exact Iff.rfl

/-- An entry of the activation array is in point t's block iff each coordinate is in the block's range. -/
theorem mem_blk_act (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v6_1).slice (win1_5.rect t)).set ↔ _
  rw [View.set_slice_whole, Rect.mem_set_unit]
  exact Iff.rfl

/-- The point whose block holds row r: r / 5000, one of the 20 points since r < 100000. -/
def pointOf (i : S100000x128.Idx) : Fin cfg1.N := ⟨(i 0).val / 5000, by
  have h : (i 0).val < 100000 := (i 0).isLt
  show (i 0).val / 5000 < 20
  omega⟩

/-- Every entry of the pre-activation array is in the block of the point of its row, and every point writes back. -/
theorem cover_pre (i : S100000x128.Idx) :
    ∃ t : Fin cfg1.N, (cfg1.win 4).flush t = true ∧ i ∈ ((cfg1.win 4).blk t).view.set := by
  have h0 : (i 0).val < 100000 := (i 0).isLt
  have h1 : (i 1).val < 128 := (i 1).isLt
  have ht : (pointOf i).val = (i 0).val / 5000 := rfl
  obtain ⟨-, -, -, -, -, -, -, -, e0, e1, -⟩ := idx_facts (pointOf i)
  refine ⟨pointOf i, flush1_4 _, ?_⟩
  rw [mem_blk_pre]
  intro a
  match a with
  | ⟨0, _⟩ => show win1_4.index (pointOf i) (0 : Fin 2) * 5000 ≤ (i 0).val ∧ (i 0).val < win1_4.index (pointOf i) (0 : Fin 2) * 5000 + 5000; omega
  | ⟨1, _⟩ => show win1_4.index (pointOf i) (1 : Fin 2) * 128 ≤ (i 1).val ∧ (i 1).val < win1_4.index (pointOf i) (1 : Fin 2) * 128 + 128; omega

/-- Every entry of the activation array is in the block of the point of its row, and every point writes back. -/
theorem cover_act (i : S100000x128.Idx) :
    ∃ t : Fin cfg1.N, (cfg1.win 5).flush t = true ∧ i ∈ ((cfg1.win 5).blk t).view.set := by
  have h0 : (i 0).val < 100000 := (i 0).isLt
  have h1 : (i 1).val < 128 := (i 1).isLt
  have ht : (pointOf i).val = (i 0).val / 5000 := rfl
  obtain ⟨-, -, -, -, -, -, -, -, -, -, f0, f1⟩ := idx_facts (pointOf i)
  refine ⟨pointOf i, flush1_5 _, ?_⟩
  rw [mem_blk_act]
  intro a
  match a with
  | ⟨0, _⟩ => show win1_5.index (pointOf i) (0 : Fin 2) * 5000 ≤ (i 0).val ∧ (i 0).val < win1_5.index (pointOf i) (0 : Fin 2) * 5000 + 5000; omega
  | ⟨1, _⟩ => show win1_5.index (pointOf i) (1 : Fin 2) * 128 ≤ (i 1).val ∧ (i 1).val < win1_5.index (pointOf i) (1 : Fin 2) * 128 + 128; omega

theorem region1_im (c : Dev nD) :
    (dat1 (F := Ideal) V c).arrAt 4 cfg1.N
      = Cert.Gnn.affineRes (V c main_arg0) (V c main_arg4) (V c main_v5) (V c main_v4) :=
  (dat1 (F := Ideal) V c).arrAt_eq_of_cover 4
    (Cert.Gnn.affineRes (V c main_arg0) (V c main_arg4) (V c main_v5) (V c main_v4))
    (fun t _ => flushed_pre V c t) cover_pre

theorem region1_h (c : Dev nD) :
    (dat1 (F := Ideal) V c).arrAt 5 cfg1.N
      = Cert.Gnn.relu (Cert.Gnn.affineRes (V c main_arg0) (V c main_arg4) (V c main_v5) (V c main_v4)) :=
  (dat1 (F := Ideal) V c).arrAt_eq_of_cover 5
    (Cert.Gnn.relu (Cert.Gnn.affineRes (V c main_arg0) (V c main_arg4) (V c main_v5) (V c main_v4)))
    (fun t _ => flushed_act V c t) cover_act

end Cert.KernelIdeal.Val

end
-- ==== Proof.Region2.lean ====
/-
  Region 2, one round's dense update: what its output array holds after the region, as one function of the arrays it
  finds.

  The grid has 20 points; point t stages rows t·5000 … t·5000 + 4999 of the in-neighbour sums and of the input message,
  the whole weight and the whole one-row bias, and writes back the same rows of the output: the dense layer of the
  in-neighbour sums plus the input message's rows, and that sum's maximum with zero.  Entry (r, v) reads only row r of
  the two row-blocked arrays, so block t of the result is block t of the whole-array function, and the 20 blocks tile
  the rows.
-/
import proofs.«181511_j42279658062025_1_alg».proof.Proof.Gen.KernelIdeal.Frame
import proofs.«181511_j42279658062025_1_alg».proof.Proof.Spec
import Idealize.ShloMosaic.Lib.Pipeline.Value

set_option maxRecDepth 16384

noncomputable section

namespace Cert.KernelIdeal.Val

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

/-! # Region 2: one round's dense update, as one function of the arrays the region finds

The grid has 20 points; point t works on node rows 5000 t … 5000 t + 4999. At a point the body multiplies its block
of rows of the features by the whole weight array, adds the one-row bias to every row, adds the same rows of the
residual array and takes max(·, 0) entrywise. An entry of that result reads only its own row of the features and of
the residual, so the 20 blocks written back side by side are the layer on the whole arrays. -/

/-- The offsets of a whole-buffer access are zero on both axes. -/
theorem conv2_origin : (![0, 0] : Fin 2 → Nat) = fun _ => 0 := funext fun a => by fin_cases a <;> rfl

/-- The body's value on its four loaded blocks: the dense layer on the feature block with the whole weight and bias,
    plus the residual block, then max(·, 0). The two reshapes to the same shape are identities; rounding the operands
    to the narrower format is the identity on extended reals. -/
theorem conv2_payload (x0 : Vec Ideal S5000x128 .f32) (x1 : Vec Ideal S128x128 .f32) (x2 : Vec Ideal S1x128 .f32)
    (x3 : Vec Ideal S5000x128 .f32) :
    k2_pay1 x0 x1 x2 x3 = Cert.Gnn.relu (Cert.Gnn.affineRes x0 x1 x2 x3) := by
  unfold k2_pay1
  simp only [shapeCast_self (s := S5000x128)]
  rw [Cert.Gnn.affine_block dot_S5000x128_S128x128_S5000x128_1_0_0_1_n_n ⟨rfl, rfl, rfl, rfl, rfl, rfl⟩]
  rw [Cert.Gnn.relu_block]
  rfl

/-- The block index of every window at every grid point, decided over the 20 points: the feature, residual and
    output windows are at row block t and column block 0; the weight and bias windows are at block (0, 0). -/
theorem conv2_indices : ∀ t : Fin cfg2.N,
      win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- The feature window's block at point t is rows 5000 t … 5000 t + 4999 of the feature array: entry (a, v) of the
    block is entry (5000 t + a, v) of the array. -/
theorem conv2_feature_rows (c : Dev nD) (t : Fin cfg2.N) (y : S5000x128.Idx) (k : S100000x128.Idx)
    (hk0 : (k 0).val = t.val * 5000 + (y 0).val) (hk1 : (k 1).val = (y 1).val) :
    (iblk2 V c 0 t : Vec Ideal S5000x128 .f32) y = (V c main_v16 : S100000x128.Idx → EReal) k := by
  obtain ⟨e00, e01, -⟩ := conv2_indices t
  unfold iblk2
  rw [View.read_apply]
  show V c main_v16 _ = V c main_v16 _
  congr 1
  funext a
  apply Fin.ext
  match a with
  | ⟨0, _⟩ => show win2_0.index t (0 : Fin 2) * 5000 + 1 * (y 0).val = (k 0).val; rw [e00, hk0]; omega
  | ⟨1, _⟩ => show win2_0.index t (1 : Fin 2) * 128 + 1 * (y 1).val = (k 1).val; rw [e01, hk1]; omega

/-- The residual window's block at point t is the same rows 5000 t … 5000 t + 4999 of the residual array. -/
theorem conv2_residual_rows (c : Dev nD) (t : Fin cfg2.N) (y : S5000x128.Idx) (k : S100000x128.Idx)
    (hk0 : (k 0).val = t.val * 5000 + (y 0).val) (hk1 : (k 1).val = (y 1).val) :
    (iblk2 V c 3 t : Vec Ideal S5000x128 .f32) y = (V c main_v6_0 : S100000x128.Idx → EReal) k := by
  obtain ⟨-, -, -, -, -, -, e30, e31, -⟩ := conv2_indices t
  unfold iblk2
  rw [View.read_apply]
  show V c main_v6_0 _ = V c main_v6_0 _
  congr 1
  funext a
  apply Fin.ext
  match a with
  | ⟨0, _⟩ => show win2_3.index t (0 : Fin 2) * 5000 + 1 * (y 0).val = (k 0).val; rw [e30, hk0]; omega
  | ⟨1, _⟩ => show win2_3.index t (1 : Fin 2) * 128 + 1 * (y 1).val = (k 1).val; rw [e31, hk1]; omega

/-- The weight window's block is the whole weight array at every point. -/
theorem conv2_weight_whole (c : Dev nD) (t : Fin cfg2.N) :
    (iblk2 V c 1 t : Vec Ideal S128x128 .f32) = (V c main_arg8 : S128x128.Idx → EReal) := by
  obtain ⟨-, -, e10, e11, -⟩ := conv2_indices t
  funext y
  unfold iblk2
  rw [View.read_apply]
  show V c main_arg8 _ = V c main_arg8 _
  congr 1
  funext a
  apply Fin.ext
  match a with
  | ⟨0, _⟩ => show win2_1.index t (0 : Fin 2) * 128 + 1 * (y 0).val = (y 0).val; rw [e10]; omega
  | ⟨1, _⟩ => show win2_1.index t (1 : Fin 2) * 128 + 1 * (y 1).val = (y 1).val; rw [e11]; omega

/-- The bias window's block is the whole one-row bias array at every point. -/
theorem conv2_bias_whole (c : Dev nD) (t : Fin cfg2.N) :
    (iblk2 V c 2 t : Vec Ideal S1x128 .f32) = (V c main_v17 : S1x128.Idx → EReal) := by
  obtain ⟨-, -, -, -, e20, e21, -⟩ := conv2_indices t
  funext y
  unfold iblk2
  rw [View.read_apply]
  show V c main_v17 _ = V c main_v17 _
  congr 1
  funext a
  apply Fin.ext
  match a with
  | ⟨0, _⟩ => show win2_2.index t (0 : Fin 2) * 1 + 1 * (y 0).val = (y 0).val; rw [e20]; omega
  | ⟨1, _⟩ => show win2_2.index t (1 : Fin 2) * 128 + 1 * (y 1).val = (y 1).val; rw [e21]; omega

/-- Entry (a, v) of the layer on a block x0 of rows p · 5000 … of the left operand X, with the block x3 of the same
    rows of the residual R, is entry (p · 5000 + a, v) of the layer on the whole arrays: the entry is
    max((∑ q, X (r, q) · W (q, v)) + b (0, v) + R (r, v), 0), which reads only row r of X and of R. -/
theorem conv2_entry_of_rows (X R : Cert.Gnn.Mat 100000 128) (W : Cert.Gnn.Mat 128 128) (b : Cert.Gnn.Mat 1 128)
    (x0 x3 : Cert.Gnn.Mat 5000 128) (p : Nat)
    (h0 : ∀ (a : Fin 5000) (r : Fin 100000) (v : Fin 128), r.val = p * 5000 + a.val → x0 (ix2 a v) = X (ix2 r v))
    (h3 : ∀ (a : Fin 5000) (r : Fin 100000) (v : Fin 128), r.val = p * 5000 + a.val → x3 (ix2 a v) = R (ix2 r v))
    (a : Fin 5000) (r : Fin 100000) (v : Fin 128) (hr : r.val = p * 5000 + a.val) :
    Cert.Gnn.relu (Cert.Gnn.affineRes x0 W b x3) (ix2 a v) = Cert.Gnn.relu (Cert.Gnn.affineRes X W b R) (ix2 r v) := by
  show max ((∑ q : Fin 128, x0 (ix2 a q) * W (ix2 q v)) + b (ix2 0 v) + x3 (ix2 a v)) 0
     = max ((∑ q : Fin 128, X (ix2 r q) * W (ix2 q v)) + b (ix2 0 v) + R (ix2 r v)) 0
  rw [h3 a r v hr]
  simp only [h0 a r _ hr]

/-- The same at an index j of the block and an index k of the array whose row is p · 5000 + j's row and whose
    column is j's column. -/
theorem conv2_at_of_rows (X R : Cert.Gnn.Mat 100000 128) (W : Cert.Gnn.Mat 128 128) (b : Cert.Gnn.Mat 1 128)
    (x0 x3 : Cert.Gnn.Mat 5000 128) (p : Nat)
    (h0 : ∀ (y : S5000x128.Idx) (k : S100000x128.Idx), (k 0).val = p * 5000 + (y 0).val → (k 1).val = (y 1).val → x0 y = X k)
    (h3 : ∀ (y : S5000x128.Idx) (k : S100000x128.Idx), (k 0).val = p * 5000 + (y 0).val → (k 1).val = (y 1).val → x3 y = R k)
    (j : S5000x128.Idx) (k : S100000x128.Idx) (hk0 : (k 0).val = p * 5000 + (j 0).val) (hk1 : (k 1).val = (j 1).val) :
    Cert.Gnn.relu (Cert.Gnn.affineRes x0 W b x3) j = Cert.Gnn.relu (Cert.Gnn.affineRes X W b R) k := by
  obtain ⟨a, v, rfl⟩ : ∃ (a : Fin 5000) (v : Fin 128), j = ix2 a v := ⟨j 0, j 1, eq_ix2 j⟩
  obtain ⟨r, v', rfl⟩ : ∃ (r : Fin 100000) (v' : Fin 128), k = ix2 r v' := ⟨k 0, k 1, eq_ix2 k⟩
  obtain rfl : v' = v := Fin.ext hk1
  exact conv2_entry_of_rows X R W b x0 x3 p (fun a r v h => h0 (ix2 a v) (ix2 r v) h rfl)
    (fun a r v h => h3 (ix2 a v) (ix2 r v) h rfl) a r v' hk0

/-- What point t writes back to the output array is block t of the layer on the whole arrays: the output block's
    entry (a, v) sits at row 5000 t + a, column v of the array, where the feature and residual blocks were read. -/
theorem conv2_point_writes (c : Dev nD) (t : Fin cfg2.N) :
    (dat2 (F := Ideal) V c).flushed 4 t = ((cfg2.win 4).blk t).view.read (Elt Ideal)
      (Cert.Gnn.relu (Cert.Gnn.affineRes (V c main_v16) (V c main_arg8) (V c main_v17) (V c main_v6_0))) := by
  show (cfg2.win 4).cut (grid2.coords t) ((dat2 V c).after 4 t) = _
  rw [after2_4]
  unfold out2_4
  rw [View.canon_unit_zero conv2_origin]
  simp only [View.ld_unit_zero (S := S5000x128) conv2_origin, View.ld_unit_zero (S := S128x128) conv2_origin,
    View.ld_unit_zero (S := S1x128) conv2_origin]
  rw [conv2_payload (iblk2 V c 0 t) (iblk2 V c 1 t) (iblk2 V c 2 t) (iblk2 V c 3 t),
    conv2_weight_whole V c t, conv2_bias_whole V c t]
  obtain ⟨-, -, -, -, -, -, -, -, e40, e41⟩ := conv2_indices t
  funext j
  show Cert.Gnn.relu (Cert.Gnn.affineRes (iblk2 V c 0 t : Vec Ideal S5000x128 .f32) (V c main_arg8) (V c main_v17)
        (iblk2 V c 3 t : Vec Ideal S5000x128 .f32)) j
    = Cert.Gnn.relu (Cert.Gnn.affineRes (V c main_v16) (V c main_arg8) (V c main_v17) (V c main_v6_0))
        (((cfg2.win 4).blk t).view.emb j)
  have hj0 : (((cfg2.win 4).blk t).view.emb j 0).val = t.val * 5000 + (j 0).val := by
    show win2_4.index t (0 : Fin 2) * 5000 + 1 * (j 0).val = _
    rw [e40]; omega
  have hj1 : (((cfg2.win 4).blk t).view.emb j 1).val = (j 1).val := by
    show win2_4.index t (1 : Fin 2) * 128 + 1 * (j 1).val = _
    rw [e41]; omega
  exact conv2_at_of_rows (V c main_v16) (V c main_v6_0) (V c main_arg8) (V c main_v17) _ _ t.val
    (conv2_feature_rows V c t) (conv2_residual_rows V c t) j _ hj0 hj1

/-- An index of the output array is in point t's block iff each coordinate is in the block's range on its axis. -/
theorem conv2_mem_block (t : Fin cfg2.N) (i : S100000x128.Idx) :
    i ∈ ((cfg2.win 4).blk t).view.set ↔ ∀ a : Fin 2, win2_4.index t a * S5000x128.size a ≤ (i a).val
      ∧ (i a).val < win2_4.index t a * S5000x128.size a + S5000x128.size a := by
  show i ∈ ((View.whole main_v18).slice (win2_4.rect t)).set ↔ _
  rw [View.set_slice_whole, Rect.mem_set_unit]
  exact Iff.rfl

/-- Row r of the output array is in the block of point r / 5000, and every point writes its block back. -/
theorem conv2_cover (i : S100000x128.Idx) :
    ∃ t : Fin cfg2.N, (cfg2.win 4).flush t = true ∧ i ∈ ((cfg2.win 4).blk t).view.set := by
  have hN : cfg2.N = 20 := N_2
  have hi0 : (i 0).val < 100000 := (i 0).isLt
  have hi1 : (i 1).val < 128 := (i 1).isLt
  let t : Fin cfg2.N := ⟨(i 0).val / 5000, by rw [hN]; omega⟩
  have ht : t.val = (i 0).val / 5000 := rfl
  obtain ⟨-, -, -, -, -, -, -, -, e40, e41⟩ := conv2_indices t
  refine ⟨t, flush2_4 t, ?_⟩
  rw [conv2_mem_block]
  intro a
  match a with
  | ⟨0, _⟩ =>
    show win2_4.index t (0 : Fin 2) * 5000 ≤ (i 0).val ∧ (i 0).val < win2_4.index t (0 : Fin 2) * 5000 + 5000
    rw [e40, ht]; omega
  | ⟨1, _⟩ =>
    show win2_4.index t (1 : Fin 2) * 128 ≤ (i 1).val ∧ (i 1).val < win2_4.index t (1 : Fin 2) * 128 + 128
    rw [e41]; omega

theorem region2 (c : Dev nD) :
    (dat2 (F := Ideal) V c).arrAt 4 cfg2.N
      = Cert.Gnn.relu (Cert.Gnn.affineRes (V c main_v16) (V c main_arg8) (V c main_v17) (V c main_v6_0)) := by
  exact (dat2 (F := Ideal) V c).arrAt_eq_of_cover 4 _ (fun t _ => conv2_point_writes V c t) conv2_cover

end Cert.KernelIdeal.Val

end
-- ==== Proof.Region3.lean ====
/-
  Region 3, one round's dense update: what its output array holds after the region, as one function of the arrays it
  finds.

  The grid has 20 points; point t stages rows t·5000 … t·5000 + 4999 of the in-neighbour sums and of the input message,
  the whole weight and the whole one-row bias, and writes back the same rows of the output: the dense layer of the
  in-neighbour sums plus the input message's rows, and that sum's maximum with zero.  Entry (r, v) reads only row r of
  the two row-blocked arrays, so block t of the result is block t of the whole-array function, and the 20 blocks tile
  the rows.
-/
import proofs.«181511_j42279658062025_1_alg».proof.Proof.Gen.KernelIdeal.Frame
import proofs.«181511_j42279658062025_1_alg».proof.Proof.Spec
import Idealize.ShloMosaic.Lib.Pipeline.Value

set_option maxRecDepth 16384

noncomputable section

namespace Cert.KernelIdeal.Val

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

/-! # Region 3: one round's dense update, as one function of the arrays the region finds

The grid has 20 points; point t works on node rows 5000 t … 5000 t + 4999. At a point the body multiplies its block
of rows of the features by the whole weight array, adds the one-row bias to every row, adds the same rows of the
residual array and takes max(·, 0) entrywise. An entry of that result reads only its own row of the features and of
the residual, so the 20 blocks written back side by side are the layer on the whole arrays. -/

/-- The offsets of a whole-buffer access are zero on both axes. -/
theorem conv3_origin : (![0, 0] : Fin 2 → Nat) = fun _ => 0 := funext fun a => by fin_cases a <;> rfl

/-- The body's value on its four loaded blocks: the dense layer on the feature block with the whole weight and bias,
    plus the residual block, then max(·, 0). The two reshapes to the same shape are identities; rounding the operands
    to the narrower format is the identity on extended reals. -/
theorem conv3_payload (x0 : Vec Ideal S5000x128 .f32) (x1 : Vec Ideal S128x128 .f32) (x2 : Vec Ideal S1x128 .f32)
    (x3 : Vec Ideal S5000x128 .f32) :
    k3_pay1 x0 x1 x2 x3 = Cert.Gnn.relu (Cert.Gnn.affineRes x0 x1 x2 x3) := by
  unfold k3_pay1
  simp only [shapeCast_self (s := S5000x128)]
  rw [Cert.Gnn.affine_block dot_S5000x128_S128x128_S5000x128_1_0_0_1_n_n ⟨rfl, rfl, rfl, rfl, rfl, rfl⟩]
  rw [Cert.Gnn.relu_block]
  rfl

/-- The block index of every window at every grid point, decided over the 20 points: the feature, residual and
    output windows are at row block t and column block 0; the weight and bias windows are at block (0, 0). -/
theorem conv3_indices : ∀ t : Fin cfg3.N,
      win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

/-- The feature window's block at point t is rows 5000 t … 5000 t + 4999 of the feature array: entry (a, v) of the
    block is entry (5000 t + a, v) of the array. -/
theorem conv3_feature_rows (c : Dev nD) (t : Fin cfg3.N) (y : S5000x128.Idx) (k : S100000x128.Idx)
    (hk0 : (k 0).val = t.val * 5000 + (y 0).val) (hk1 : (k 1).val = (y 1).val) :
    (iblk3 V c 0 t : Vec Ideal S5000x128 .f32) y = (V c main_v28 : S100000x128.Idx → EReal) k := by
  obtain ⟨e00, e01, -⟩ := conv3_indices t
  unfold iblk3
  rw [View.read_apply]
  show V c main_v28 _ = V c main_v28 _
  congr 1
  funext a
  apply Fin.ext
  match a with
  | ⟨0, _⟩ => show win3_0.index t (0 : Fin 2) * 5000 + 1 * (y 0).val = (k 0).val; rw [e00, hk0]; omega
  | ⟨1, _⟩ => show win3_0.index t (1 : Fin 2) * 128 + 1 * (y 1).val = (k 1).val; rw [e01, hk1]; omega

/-- The residual window's block at point t is the same rows 5000 t … 5000 t + 4999 of the residual array. -/
theorem conv3_residual_rows (c : Dev nD) (t : Fin cfg3.N) (y : S5000x128.Idx) (k : S100000x128.Idx)
    (hk0 : (k 0).val = t.val * 5000 + (y 0).val) (hk1 : (k 1).val = (y 1).val) :
    (iblk3 V c 3 t : Vec Ideal S5000x128 .f32) y = (V c main_v6_0 : S100000x128.Idx → EReal) k := by
  obtain ⟨-, -, -, -, -, -, e30, e31, -⟩ := conv3_indices t
  unfold iblk3
  rw [View.read_apply]
  show V c main_v6_0 _ = V c main_v6_0 _
  congr 1
  funext a
  apply Fin.ext
  match a with
  | ⟨0, _⟩ => show win3_3.index t (0 : Fin 2) * 5000 + 1 * (y 0).val = (k 0).val; rw [e30, hk0]; omega
  | ⟨1, _⟩ => show win3_3.index t (1 : Fin 2) * 128 + 1 * (y 1).val = (k 1).val; rw [e31, hk1]; omega

/-- The weight window's block is the whole weight array at every point. -/
theorem conv3_weight_whole (c : Dev nD) (t : Fin cfg3.N) :
    (iblk3 V c 1 t : Vec Ideal S128x128 .f32) = (V c main_arg8 : S128x128.Idx → EReal) := by
  obtain ⟨-, -, e10, e11, -⟩ := conv3_indices t
  funext y
  unfold iblk3
  rw [View.read_apply]
  show V c main_arg8 _ = V c main_arg8 _
  congr 1
  funext a
  apply Fin.ext
  match a with
  | ⟨0, _⟩ => show win3_1.index t (0 : Fin 2) * 128 + 1 * (y 0).val = (y 0).val; rw [e10]; omega
  | ⟨1, _⟩ => show win3_1.index t (1 : Fin 2) * 128 + 1 * (y 1).val = (y 1).val; rw [e11]; omega

/-- The bias window's block is the whole one-row bias array at every point. -/
theorem conv3_bias_whole (c : Dev nD) (t : Fin cfg3.N) :
    (iblk3 V c 2 t : Vec Ideal S1x128 .f32) = (V c main_v29 : S1x128.Idx → EReal) := by
  obtain ⟨-, -, -, -, e20, e21, -⟩ := conv3_indices t
  funext y
  unfold iblk3
  rw [View.read_apply]
  show V c main_v29 _ = V c main_v29 _
  congr 1
  funext a
  apply Fin.ext
  match a with
  | ⟨0, _⟩ => show win3_2.index t (0 : Fin 2) * 1 + 1 * (y 0).val = (y 0).val; rw [e20]; omega
  | ⟨1, _⟩ => show win3_2.index t (1 : Fin 2) * 128 + 1 * (y 1).val = (y 1).val; rw [e21]; omega

/-- Entry (a, v) of the layer on a block x0 of rows p · 5000 … of the left operand X, with the block x3 of the same
    rows of the residual R, is entry (p · 5000 + a, v) of the layer on the whole arrays: the entry is
    max((∑ q, X (r, q) · W (q, v)) + b (0, v) + R (r, v), 0), which reads only row r of X and of R. -/
theorem conv3_entry_of_rows (X R : Cert.Gnn.Mat 100000 128) (W : Cert.Gnn.Mat 128 128) (b : Cert.Gnn.Mat 1 128)
    (x0 x3 : Cert.Gnn.Mat 5000 128) (p : Nat)
    (h0 : ∀ (a : Fin 5000) (r : Fin 100000) (v : Fin 128), r.val = p * 5000 + a.val → x0 (ix2 a v) = X (ix2 r v))
    (h3 : ∀ (a : Fin 5000) (r : Fin 100000) (v : Fin 128), r.val = p * 5000 + a.val → x3 (ix2 a v) = R (ix2 r v))
    (a : Fin 5000) (r : Fin 100000) (v : Fin 128) (hr : r.val = p * 5000 + a.val) :
    Cert.Gnn.relu (Cert.Gnn.affineRes x0 W b x3) (ix2 a v) = Cert.Gnn.relu (Cert.Gnn.affineRes X W b R) (ix2 r v) := by
  show max ((∑ q : Fin 128, x0 (ix2 a q) * W (ix2 q v)) + b (ix2 0 v) + x3 (ix2 a v)) 0
     = max ((∑ q : Fin 128, X (ix2 r q) * W (ix2 q v)) + b (ix2 0 v) + R (ix2 r v)) 0
  rw [h3 a r v hr]
  simp only [h0 a r _ hr]

/-- The same at an index j of the block and an index k of the array whose row is p · 5000 + j's row and whose
    column is j's column. -/
theorem conv3_at_of_rows (X R : Cert.Gnn.Mat 100000 128) (W : Cert.Gnn.Mat 128 128) (b : Cert.Gnn.Mat 1 128)
    (x0 x3 : Cert.Gnn.Mat 5000 128) (p : Nat)
    (h0 : ∀ (y : S5000x128.Idx) (k : S100000x128.Idx), (k 0).val = p * 5000 + (y 0).val → (k 1).val = (y 1).val → x0 y = X k)
    (h3 : ∀ (y : S5000x128.Idx) (k : S100000x128.Idx), (k 0).val = p * 5000 + (y 0).val → (k 1).val = (y 1).val → x3 y = R k)
    (j : S5000x128.Idx) (k : S100000x128.Idx) (hk0 : (k 0).val = p * 5000 + (j 0).val) (hk1 : (k 1).val = (j 1).val) :
    Cert.Gnn.relu (Cert.Gnn.affineRes x0 W b x3) j = Cert.Gnn.relu (Cert.Gnn.affineRes X W b R) k := by
  obtain ⟨a, v, rfl⟩ : ∃ (a : Fin 5000) (v : Fin 128), j = ix2 a v := ⟨j 0, j 1, eq_ix2 j⟩
  obtain ⟨r, v', rfl⟩ : ∃ (r : Fin 100000) (v' : Fin 128), k = ix2 r v' := ⟨k 0, k 1, eq_ix2 k⟩
  obtain rfl : v' = v := Fin.ext hk1
  exact conv3_entry_of_rows X R W b x0 x3 p (fun a r v h => h0 (ix2 a v) (ix2 r v) h rfl)
    (fun a r v h => h3 (ix2 a v) (ix2 r v) h rfl) a r v' hk0

/-- What point t writes back to the output array is block t of the layer on the whole arrays: the output block's
    entry (a, v) sits at row 5000 t + a, column v of the array, where the feature and residual blocks were read. -/
theorem conv3_point_writes (c : Dev nD) (t : Fin cfg3.N) :
    (dat3 (F := Ideal) V c).flushed 4 t = ((cfg3.win 4).blk t).view.read (Elt Ideal)
      (Cert.Gnn.relu (Cert.Gnn.affineRes (V c main_v28) (V c main_arg8) (V c main_v29) (V c main_v6_0))) := by
  show (cfg3.win 4).cut (grid3.coords t) ((dat3 V c).after 4 t) = _
  rw [after3_4]
  unfold out3_4
  rw [View.canon_unit_zero conv3_origin]
  simp only [View.ld_unit_zero (S := S5000x128) conv3_origin, View.ld_unit_zero (S := S128x128) conv3_origin,
    View.ld_unit_zero (S := S1x128) conv3_origin]
  rw [conv3_payload (iblk3 V c 0 t) (iblk3 V c 1 t) (iblk3 V c 2 t) (iblk3 V c 3 t),
    conv3_weight_whole V c t, conv3_bias_whole V c t]
  obtain ⟨-, -, -, -, -, -, -, -, e40, e41⟩ := conv3_indices t
  funext j
  show Cert.Gnn.relu (Cert.Gnn.affineRes (iblk3 V c 0 t : Vec Ideal S5000x128 .f32) (V c main_arg8) (V c main_v29)
        (iblk3 V c 3 t : Vec Ideal S5000x128 .f32)) j
    = Cert.Gnn.relu (Cert.Gnn.affineRes (V c main_v28) (V c main_arg8) (V c main_v29) (V c main_v6_0))
        (((cfg3.win 4).blk t).view.emb j)
  have hj0 : (((cfg3.win 4).blk t).view.emb j 0).val = t.val * 5000 + (j 0).val := by
    show win3_4.index t (0 : Fin 2) * 5000 + 1 * (j 0).val = _
    rw [e40]; omega
  have hj1 : (((cfg3.win 4).blk t).view.emb j 1).val = (j 1).val := by
    show win3_4.index t (1 : Fin 2) * 128 + 1 * (j 1).val = _
    rw [e41]; omega
  exact conv3_at_of_rows (V c main_v28) (V c main_v6_0) (V c main_arg8) (V c main_v29) _ _ t.val
    (conv3_feature_rows V c t) (conv3_residual_rows V c t) j _ hj0 hj1

/-- An index of the output array is in point t's block iff each coordinate is in the block's range on its axis. -/
theorem conv3_mem_block (t : Fin cfg3.N) (i : S100000x128.Idx) :
    i ∈ ((cfg3.win 4).blk t).view.set ↔ ∀ a : Fin 2, win3_4.index t a * S5000x128.size a ≤ (i a).val
      ∧ (i a).val < win3_4.index t a * S5000x128.size a + S5000x128.size a := by
  show i ∈ ((View.whole main_v30).slice (win3_4.rect t)).set ↔ _
  rw [View.set_slice_whole, Rect.mem_set_unit]
  exact Iff.rfl

/-- Row r of the output array is in the block of point r / 5000, and every point writes its block back. -/
theorem conv3_cover (i : S100000x128.Idx) :
    ∃ t : Fin cfg3.N, (cfg3.win 4).flush t = true ∧ i ∈ ((cfg3.win 4).blk t).view.set := by
  have hN : cfg3.N = 20 := N_3
  have hi0 : (i 0).val < 100000 := (i 0).isLt
  have hi1 : (i 1).val < 128 := (i 1).isLt
  let t : Fin cfg3.N := ⟨(i 0).val / 5000, by rw [hN]; omega⟩
  have ht : t.val = (i 0).val / 5000 := rfl
  obtain ⟨-, -, -, -, -, -, -, -, e40, e41⟩ := conv3_indices t
  refine ⟨t, flush3_4 t, ?_⟩
  rw [conv3_mem_block]
  intro a
  match a with
  | ⟨0, _⟩ =>
    show win3_4.index t (0 : Fin 2) * 5000 ≤ (i 0).val ∧ (i 0).val < win3_4.index t (0 : Fin 2) * 5000 + 5000
    rw [e40, ht]; omega
  | ⟨1, _⟩ =>
    show win3_4.index t (1 : Fin 2) * 128 ≤ (i 1).val ∧ (i 1).val < win3_4.index t (1 : Fin 2) * 128 + 128
    rw [e41]; omega

theorem region3 (c : Dev nD) :
    (dat3 (F := Ideal) V c).arrAt 4 cfg3.N
      = Cert.Gnn.relu (Cert.Gnn.affineRes (V c main_v28) (V c main_arg8) (V c main_v29) (V c main_v6_0)) := by
  exact (dat3 (F := Ideal) V c).arrAt_eq_of_cover 4 _ (fun t _ => conv3_point_writes V c t) conv3_cover

end Cert.KernelIdeal.Val

end
-- ==== Proof.Region4.lean ====
/-
  Region 4, one round's dense update: what its output array holds after the region, as one function of the arrays it
  finds.

  The grid has 20 points; point t stages rows t·5000 … t·5000 + 4999 of the in-neighbour sums and of the input message,
  the whole weight and the whole one-row bias, and writes back the same rows of the output: the dense layer of the
  in-neighbour sums plus the input message's rows, and that sum's maximum with zero.  Entry (r, v) reads only row r of
  the two row-blocked arrays, so block t of the result is block t of the whole-array function, and the 20 blocks tile
  the rows.
-/
import proofs.«181511_j42279658062025_1_alg».proof.Proof.Gen.KernelIdeal.Frame
import proofs.«181511_j42279658062025_1_alg».proof.Proof.Spec
import Idealize.ShloMosaic.Lib.Pipeline.Value

set_option maxRecDepth 16384

noncomputable section

namespace Cert.KernelIdeal.Val

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

/-! # Region 4: one round's dense update, as one function of the arrays the region finds

The grid has 20 points; point t works on node rows 5000 t … 5000 t + 4999. At a point the body multiplies its block
of rows of the features by the whole weight array, adds the one-row bias to every row, adds the same rows of the
residual array and takes max(·, 0) entrywise. An entry of that result reads only its own row of the features and of
the residual, so the 20 blocks written back side by side are the layer on the whole arrays. -/

/-- The offsets of a whole-buffer access are zero on both axes. -/
theorem conv4_origin : (![0, 0] : Fin 2 → Nat) = fun _ => 0 := funext fun a => by fin_cases a <;> rfl

/-- The body's value on its four loaded blocks: the dense layer on the feature block with the whole weight and bias,
    plus the residual block, then max(·, 0). The two reshapes to the same shape are identities; rounding the operands
    to the narrower format is the identity on extended reals. -/
theorem conv4_payload (x0 : Vec Ideal S5000x128 .f32) (x1 : Vec Ideal S128x128 .f32) (x2 : Vec Ideal S1x128 .f32)
    (x3 : Vec Ideal S5000x128 .f32) :
    k4_pay1 x0 x1 x2 x3 = Cert.Gnn.relu (Cert.Gnn.affineRes x0 x1 x2 x3) := by
  unfold k4_pay1
  simp only [shapeCast_self (s := S5000x128)]
  rw [Cert.Gnn.affine_block dot_S5000x128_S128x128_S5000x128_1_0_0_1_n_n ⟨rfl, rfl, rfl, rfl, rfl, rfl⟩]
  rw [Cert.Gnn.relu_block]
  rfl

/-- The block index of every window at every grid point, decided over the 20 points: the feature, residual and
    output windows are at row block t and column block 0; the weight and bias windows are at block (0, 0). -/
theorem conv4_indices : ∀ t : Fin cfg4.N,
      win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0 :=
  (by decide +kernel : ∀ t : Fin grid4.N, _)

/-- The feature window's block at point t is rows 5000 t … 5000 t + 4999 of the feature array: entry (a, v) of the
    block is entry (5000 t + a, v) of the array. -/
theorem conv4_feature_rows (c : Dev nD) (t : Fin cfg4.N) (y : S5000x128.Idx) (k : S100000x128.Idx)
    (hk0 : (k 0).val = t.val * 5000 + (y 0).val) (hk1 : (k 1).val = (y 1).val) :
    (iblk4 V c 0 t : Vec Ideal S5000x128 .f32) y = (V c main_v40 : S100000x128.Idx → EReal) k := by
  obtain ⟨e00, e01, -⟩ := conv4_indices t
  unfold iblk4
  rw [View.read_apply]
  show V c main_v40 _ = V c main_v40 _
  congr 1
  funext a
  apply Fin.ext
  match a with
  | ⟨0, _⟩ => show win4_0.index t (0 : Fin 2) * 5000 + 1 * (y 0).val = (k 0).val; rw [e00, hk0]; omega
  | ⟨1, _⟩ => show win4_0.index t (1 : Fin 2) * 128 + 1 * (y 1).val = (k 1).val; rw [e01, hk1]; omega

/-- The residual window's block at point t is the same rows 5000 t … 5000 t + 4999 of the residual array. -/
theorem conv4_residual_rows (c : Dev nD) (t : Fin cfg4.N) (y : S5000x128.Idx) (k : S100000x128.Idx)
    (hk0 : (k 0).val = t.val * 5000 + (y 0).val) (hk1 : (k 1).val = (y 1).val) :
    (iblk4 V c 3 t : Vec Ideal S5000x128 .f32) y = (V c main_v6_0 : S100000x128.Idx → EReal) k := by
  obtain ⟨-, -, -, -, -, -, e30, e31, -⟩ := conv4_indices t
  unfold iblk4
  rw [View.read_apply]
  show V c main_v6_0 _ = V c main_v6_0 _
  congr 1
  funext a
  apply Fin.ext
  match a with
  | ⟨0, _⟩ => show win4_3.index t (0 : Fin 2) * 5000 + 1 * (y 0).val = (k 0).val; rw [e30, hk0]; omega
  | ⟨1, _⟩ => show win4_3.index t (1 : Fin 2) * 128 + 1 * (y 1).val = (k 1).val; rw [e31, hk1]; omega

/-- The weight window's block is the whole weight array at every point. -/
theorem conv4_weight_whole (c : Dev nD) (t : Fin cfg4.N) :
    (iblk4 V c 1 t : Vec Ideal S128x128 .f32) = (V c main_arg8 : S128x128.Idx → EReal) := by
  obtain ⟨-, -, e10, e11, -⟩ := conv4_indices t
  funext y
  unfold iblk4
  rw [View.read_apply]
  show V c main_arg8 _ = V c main_arg8 _
  congr 1
  funext a
  apply Fin.ext
  match a with
  | ⟨0, _⟩ => show win4_1.index t (0 : Fin 2) * 128 + 1 * (y 0).val = (y 0).val; rw [e10]; omega
  | ⟨1, _⟩ => show win4_1.index t (1 : Fin 2) * 128 + 1 * (y 1).val = (y 1).val; rw [e11]; omega

/-- The bias window's block is the whole one-row bias array at every point. -/
theorem conv4_bias_whole (c : Dev nD) (t : Fin cfg4.N) :
    (iblk4 V c 2 t : Vec Ideal S1x128 .f32) = (V c main_v41 : S1x128.Idx → EReal) := by
  obtain ⟨-, -, -, -, e20, e21, -⟩ := conv4_indices t
  funext y
  unfold iblk4
  rw [View.read_apply]
  show V c main_v41 _ = V c main_v41 _
  congr 1
  funext a
  apply Fin.ext
  match a with
  | ⟨0, _⟩ => show win4_2.index t (0 : Fin 2) * 1 + 1 * (y 0).val = (y 0).val; rw [e20]; omega
  | ⟨1, _⟩ => show win4_2.index t (1 : Fin 2) * 128 + 1 * (y 1).val = (y 1).val; rw [e21]; omega

/-- Entry (a, v) of the layer on a block x0 of rows p · 5000 … of the left operand X, with the block x3 of the same
    rows of the residual R, is entry (p · 5000 + a, v) of the layer on the whole arrays: the entry is
    max((∑ q, X (r, q) · W (q, v)) + b (0, v) + R (r, v), 0), which reads only row r of X and of R. -/
theorem conv4_entry_of_rows (X R : Cert.Gnn.Mat 100000 128) (W : Cert.Gnn.Mat 128 128) (b : Cert.Gnn.Mat 1 128)
    (x0 x3 : Cert.Gnn.Mat 5000 128) (p : Nat)
    (h0 : ∀ (a : Fin 5000) (r : Fin 100000) (v : Fin 128), r.val = p * 5000 + a.val → x0 (ix2 a v) = X (ix2 r v))
    (h3 : ∀ (a : Fin 5000) (r : Fin 100000) (v : Fin 128), r.val = p * 5000 + a.val → x3 (ix2 a v) = R (ix2 r v))
    (a : Fin 5000) (r : Fin 100000) (v : Fin 128) (hr : r.val = p * 5000 + a.val) :
    Cert.Gnn.relu (Cert.Gnn.affineRes x0 W b x3) (ix2 a v) = Cert.Gnn.relu (Cert.Gnn.affineRes X W b R) (ix2 r v) := by
  show max ((∑ q : Fin 128, x0 (ix2 a q) * W (ix2 q v)) + b (ix2 0 v) + x3 (ix2 a v)) 0
     = max ((∑ q : Fin 128, X (ix2 r q) * W (ix2 q v)) + b (ix2 0 v) + R (ix2 r v)) 0
  rw [h3 a r v hr]
  simp only [h0 a r _ hr]

/-- The same at an index j of the block and an index k of the array whose row is p · 5000 + j's row and whose
    column is j's column. -/
theorem conv4_at_of_rows (X R : Cert.Gnn.Mat 100000 128) (W : Cert.Gnn.Mat 128 128) (b : Cert.Gnn.Mat 1 128)
    (x0 x3 : Cert.Gnn.Mat 5000 128) (p : Nat)
    (h0 : ∀ (y : S5000x128.Idx) (k : S100000x128.Idx), (k 0).val = p * 5000 + (y 0).val → (k 1).val = (y 1).val → x0 y = X k)
    (h3 : ∀ (y : S5000x128.Idx) (k : S100000x128.Idx), (k 0).val = p * 5000 + (y 0).val → (k 1).val = (y 1).val → x3 y = R k)
    (j : S5000x128.Idx) (k : S100000x128.Idx) (hk0 : (k 0).val = p * 5000 + (j 0).val) (hk1 : (k 1).val = (j 1).val) :
    Cert.Gnn.relu (Cert.Gnn.affineRes x0 W b x3) j = Cert.Gnn.relu (Cert.Gnn.affineRes X W b R) k := by
  obtain ⟨a, v, rfl⟩ : ∃ (a : Fin 5000) (v : Fin 128), j = ix2 a v := ⟨j 0, j 1, eq_ix2 j⟩
  obtain ⟨r, v', rfl⟩ : ∃ (r : Fin 100000) (v' : Fin 128), k = ix2 r v' := ⟨k 0, k 1, eq_ix2 k⟩
  obtain rfl : v' = v := Fin.ext hk1
  exact conv4_entry_of_rows X R W b x0 x3 p (fun a r v h => h0 (ix2 a v) (ix2 r v) h rfl)
    (fun a r v h => h3 (ix2 a v) (ix2 r v) h rfl) a r v' hk0

/-- What point t writes back to the output array is block t of the layer on the whole arrays: the output block's
    entry (a, v) sits at row 5000 t + a, column v of the array, where the feature and residual blocks were read. -/
theorem conv4_point_writes (c : Dev nD) (t : Fin cfg4.N) :
    (dat4 (F := Ideal) V c).flushed 4 t = ((cfg4.win 4).blk t).view.read (Elt Ideal)
      (Cert.Gnn.relu (Cert.Gnn.affineRes (V c main_v40) (V c main_arg8) (V c main_v41) (V c main_v6_0))) := by
  show (cfg4.win 4).cut (grid4.coords t) ((dat4 V c).after 4 t) = _
  rw [after4_4]
  unfold out4_4
  rw [View.canon_unit_zero conv4_origin]
  simp only [View.ld_unit_zero (S := S5000x128) conv4_origin, View.ld_unit_zero (S := S128x128) conv4_origin,
    View.ld_unit_zero (S := S1x128) conv4_origin]
  rw [conv4_payload (iblk4 V c 0 t) (iblk4 V c 1 t) (iblk4 V c 2 t) (iblk4 V c 3 t),
    conv4_weight_whole V c t, conv4_bias_whole V c t]
  obtain ⟨-, -, -, -, -, -, -, -, e40, e41⟩ := conv4_indices t
  funext j
  show Cert.Gnn.relu (Cert.Gnn.affineRes (iblk4 V c 0 t : Vec Ideal S5000x128 .f32) (V c main_arg8) (V c main_v41)
        (iblk4 V c 3 t : Vec Ideal S5000x128 .f32)) j
    = Cert.Gnn.relu (Cert.Gnn.affineRes (V c main_v40) (V c main_arg8) (V c main_v41) (V c main_v6_0))
        (((cfg4.win 4).blk t).view.emb j)
  have hj0 : (((cfg4.win 4).blk t).view.emb j 0).val = t.val * 5000 + (j 0).val := by
    show win4_4.index t (0 : Fin 2) * 5000 + 1 * (j 0).val = _
    rw [e40]; omega
  have hj1 : (((cfg4.win 4).blk t).view.emb j 1).val = (j 1).val := by
    show win4_4.index t (1 : Fin 2) * 128 + 1 * (j 1).val = _
    rw [e41]; omega
  exact conv4_at_of_rows (V c main_v40) (V c main_v6_0) (V c main_arg8) (V c main_v41) _ _ t.val
    (conv4_feature_rows V c t) (conv4_residual_rows V c t) j _ hj0 hj1

/-- An index of the output array is in point t's block iff each coordinate is in the block's range on its axis. -/
theorem conv4_mem_block (t : Fin cfg4.N) (i : S100000x128.Idx) :
    i ∈ ((cfg4.win 4).blk t).view.set ↔ ∀ a : Fin 2, win4_4.index t a * S5000x128.size a ≤ (i a).val
      ∧ (i a).val < win4_4.index t a * S5000x128.size a + S5000x128.size a := by
  show i ∈ ((View.whole main_v42).slice (win4_4.rect t)).set ↔ _
  rw [View.set_slice_whole, Rect.mem_set_unit]
  exact Iff.rfl

/-- Row r of the output array is in the block of point r / 5000, and every point writes its block back. -/
theorem conv4_cover (i : S100000x128.Idx) :
    ∃ t : Fin cfg4.N, (cfg4.win 4).flush t = true ∧ i ∈ ((cfg4.win 4).blk t).view.set := by
  have hN : cfg4.N = 20 := N_4
  have hi0 : (i 0).val < 100000 := (i 0).isLt
  have hi1 : (i 1).val < 128 := (i 1).isLt
  let t : Fin cfg4.N := ⟨(i 0).val / 5000, by rw [hN]; omega⟩
  have ht : t.val = (i 0).val / 5000 := rfl
  obtain ⟨-, -, -, -, -, -, -, -, e40, e41⟩ := conv4_indices t
  refine ⟨t, flush4_4 t, ?_⟩
  rw [conv4_mem_block]
  intro a
  match a with
  | ⟨0, _⟩ =>
    show win4_4.index t (0 : Fin 2) * 5000 ≤ (i 0).val ∧ (i 0).val < win4_4.index t (0 : Fin 2) * 5000 + 5000
    rw [e40, ht]; omega
  | ⟨1, _⟩ =>
    show win4_4.index t (1 : Fin 2) * 128 ≤ (i 1).val ∧ (i 1).val < win4_4.index t (1 : Fin 2) * 128 + 128
    rw [e41]; omega

theorem region4 (c : Dev nD) :
    (dat4 (F := Ideal) V c).arrAt 4 cfg4.N
      = Cert.Gnn.relu (Cert.Gnn.affineRes (V c main_v40) (V c main_arg8) (V c main_v41) (V c main_v6_0)) := by
  exact (dat4 (F := Ideal) V c).arrAt_eq_of_cover 4 _ (fun t _ => conv4_point_writes V c t) conv4_cover

end Cert.KernelIdeal.Val

end
-- ==== Proof.Region5.lean ====
/-
  Region 5, the output head: what its output array holds after the region, as one function of the arrays it finds.

  The grid has 20 points; point t stages rows t·5000 … t·5000 + 4999 of the last activation, the whole weight and the
  whole one-row bias, and writes back the same rows of the output: the dense layer's maximum with zero.  Entry (r, v)
  reads only row r of the activation, so block t of the result is block t of the whole-array function, and the 20
  blocks tile the rows.
-/
import proofs.«181511_j42279658062025_1_alg».proof.Proof.Gen.KernelIdeal.Frame
import proofs.«181511_j42279658062025_1_alg».proof.Proof.Spec
import Idealize.ShloMosaic.Lib.Pipeline.Value

set_option maxRecDepth 16384

noncomputable section

namespace Cert.KernelIdeal.Val

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

/-- The origin of a rank-2 buffer is the constant-zero offset. -/
theorem head_origin : (![0, 0] : Fin 2 → Nat) = fun _ => 0 := funext fun a => by fin_cases a <;> rfl

/-- The body's payload on its three loaded blocks: the rows' affine map through the weights plus the bias row,
    then the positive part. -/
theorem head_payload (x0 : Vec Ideal S5000x128 .f32) (x1 : Vec Ideal S128x128 .f32) (x2 : Vec Ideal S1x128 .f32) :
    k5_pay1 x0 x1 x2 = Cert.Gnn.relu (Cert.Gnn.affine x0 x1 x2) := by
  unfold k5_pay1
  dsimp only
  rw [shapeCast_self x0]
  rw [Cert.Gnn.affine_block _ ⟨rfl, rfl, rfl, rfl, rfl, rfl⟩ _ x0 x1 x2, Cert.Gnn.relu_block]

/-- The windows' index maps over the grid: the row-blocked windows sit at block row t, column block 0; the weight and
    bias windows never move. -/
theorem head_idx_facts : ∀ t : Fin cfg5.N, win5_0.index t (0 : Fin 2) = win5_3.index t (0 : Fin 2)
    ∧ win5_0.index t (1 : Fin 2) = 0 ∧ win5_3.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val :=
  (by decide +kernel : ∀ t : Fin grid5.N, _)

/-- Rows of the head. A block of 5000 rows whose entries are rows k*5000 … k*5000 + 4999 of X has, as its head
    through the whole weights and bias, the same rows of the whole array's head: entry (r, q) of the head depends on
    row r of X, column q of the weights and entry q of the bias only. -/
theorem head_rows (X : Cert.Gnn.Mat 100000 128) (W : Cert.Gnn.Mat 128 128) (b : Cert.Gnn.Mat 1 128)
    (x : Cert.Gnn.Mat 5000 128) (w : Cert.Gnn.Mat 128 128) (b' : Cert.Gnn.Mat 1 128) (k : Nat)
    (hx : ∀ (y : S5000x128.Idx) (i : S100000x128.Idx), (i 0).val = k * 5000 + (y 0).val → (i 1).val = (y 1).val → x y = X i)
    (hw : w = W) (hb : b' = b)
    (j : S5000x128.Idx) (i : S100000x128.Idx) (hi0 : (i 0).val = k * 5000 + (j 0).val) (hi1 : (i 1).val = (j 1).val) :
    Cert.Gnn.relu (Cert.Gnn.affine x w b') j = Cert.Gnn.relu (Cert.Gnn.affine X W b) i := by
  subst hw hb
  unfold Cert.Gnn.relu Cert.Gnn.affine
  have e1 : j 1 = i 1 := Fin.ext hi1.symm
  rw [e1]
  congr 2
  refine Finset.sum_congr rfl fun q _ => ?_
  rw [hx (ix2 (j 0) q) (ix2 (i 0) q) hi0 rfl]

/-- The node-row window's block at point t is rows (block row of the output at t) * 5000 … of the node array: the
    two row-blocked windows move together, and neither moves along the columns. -/
theorem head_rows_blk (c : Dev nD) (t : Fin cfg5.N) (y : S5000x128.Idx) (i : S100000x128.Idx)
    (hi0 : (i 0).val = win5_3.index t (0 : Fin 2) * 5000 + (y 0).val) (hi1 : (i 1).val = (y 1).val) :
    (iblk5 V c 0 t : Vec Ideal S5000x128 .f32) y = (V c main_v42 : S100000x128.Idx → EReal) i := by
  obtain ⟨e0, e1, e2, e3, e4, e5, e6, e7⟩ := head_idx_facts t
  unfold iblk5
  rw [View.read_apply]
  show V c main_v42 _ = V c main_v42 _
  congr 1
  funext a
  apply Fin.ext
  match a with
  | ⟨0, _⟩ => show win5_0.index t (0 : Fin 2) * 5000 + 1 * (y 0).val = (i 0).val; rw [e0, hi0]; omega
  | ⟨1, _⟩ => show win5_0.index t (1 : Fin 2) * 128 + 1 * (y 1).val = (i 1).val; rw [e1, hi1]; omega

/-- The weights' window holds the whole weight array at every point: its block index is (0, 0) throughout. -/
theorem head_weights_blk (c : Dev nD) (t : Fin cfg5.N) :
    (iblk5 V c 1 t : Vec Ideal S128x128 .f32) = (V c main_arg10 : S128x128.Idx → EReal) := by
  obtain ⟨e0, e1, e2, e3, e4, e5, e6, e7⟩ := head_idx_facts t
  funext y
  unfold iblk5
  rw [View.read_apply]
  show V c main_arg10 _ = V c main_arg10 _
  congr 1
  funext a
  apply Fin.ext
  match a with
  | ⟨0, _⟩ => show win5_1.index t (0 : Fin 2) * 128 + 1 * (y 0).val = (y 0).val; rw [e3]; omega
  | ⟨1, _⟩ => show win5_1.index t (1 : Fin 2) * 128 + 1 * (y 1).val = (y 1).val; rw [e4]; omega

/-- The bias window holds the whole bias row at every point: its block index is (0, 0) throughout. -/
theorem head_bias_blk (c : Dev nD) (t : Fin cfg5.N) :
    (iblk5 V c 2 t : Vec Ideal S1x128 .f32) = (V c main_v43 : S1x128.Idx → EReal) := by
  obtain ⟨e0, e1, e2, e3, e4, e5, e6, e7⟩ := head_idx_facts t
  funext y
  unfold iblk5
  rw [View.read_apply]
  show V c main_v43 _ = V c main_v43 _
  congr 1
  funext a
  apply Fin.ext
  match a with
  | ⟨0, _⟩ => show win5_2.index t (0 : Fin 2) * 1 + 1 * (y 0).val = (y 0).val; rw [e5]; omega
  | ⟨1, _⟩ => show win5_2.index t (1 : Fin 2) * 128 + 1 * (y 1).val = (y 1).val; rw [e6]; omega

/-- WHAT POINT t WRITES BACK is block t of the head of the arrays the region finds. -/
theorem head_flushed (c : Dev nD) (t : Fin cfg5.N) :
    (dat5 (F := Ideal) V c).flushed 3 t = ((cfg5.win 3).blk t).view.read (Elt Ideal)
      (Cert.Gnn.relu (Cert.Gnn.affine (V c main_v42) (V c main_arg10) (V c main_v43))) := by
  show (cfg5.win 3).cut (grid5.coords t) ((dat5 V c).after 3 t) = _
  rw [after5_3]
  unfold out5_3
  rw [View.canon_unit_zero head_origin]
  simp only [View.ld_unit_zero (S := S5000x128) head_origin, View.ld_unit_zero (S := S128x128) head_origin,
    View.ld_unit_zero (S := S1x128) head_origin]
  rw [head_payload]
  obtain ⟨e0, e1, e2, e3, e4, e5, e6, e7⟩ := head_idx_facts t
  funext j
  show Cert.Gnn.relu (Cert.Gnn.affine (iblk5 V c 0 t : Vec Ideal S5000x128 .f32) (iblk5 V c 1 t : Vec Ideal S128x128 .f32)
      (iblk5 V c 2 t : Vec Ideal S1x128 .f32)) j
    = Cert.Gnn.relu (Cert.Gnn.affine (V c main_v42) (V c main_arg10) (V c main_v43)) (((cfg5.win 3).blk t).view.emb j)
  refine head_rows _ _ _ _ _ _ (win5_3.index t (0 : Fin 2)) (fun y i h0 h1 => head_rows_blk V c t y i h0 h1)
    (head_weights_blk V c t) (head_bias_blk V c t) j _ ?_ ?_
  · show win5_3.index t (0 : Fin 2) * 5000 + 1 * (j 0).val = _
    omega
  · show win5_3.index t (1 : Fin 2) * 128 + 1 * (j 1).val = (j 1).val
    rw [e2]; omega

/-- An index of the output array is in point t's block iff each coordinate is in the block's range on its axis. -/
theorem head_mem_blk (t : Fin cfg5.N) (i : S100000x128.Idx) :
    i ∈ ((cfg5.win 3).blk t).view.set ↔ ∀ a : Fin 2, win5_3.index t a * S5000x128.size a ≤ (i a).val
      ∧ (i a).val < win5_3.index t a * S5000x128.size a + S5000x128.size a := by
  show i ∈ ((View.whole main_v44).slice (win5_3.rect t)).set ↔ _
  rw [View.set_slice_whole, Rect.mem_set_unit]
  exact Iff.rfl

/-- Every index of the output array is in some point's block, and every point writes back: row r is in the block
    of point r / 5000, the twenty blocks of 5000 rows filling the 100000 rows; the one column block is the whole
    width. -/
theorem head_cover (i : S100000x128.Idx) :
    ∃ t : Fin cfg5.N, (cfg5.win 3).flush t = true ∧ i ∈ ((cfg5.win 3).blk t).view.set := by
  have hN : cfg5.N = 20 := N_5
  have hi0 : (i 0).val < 100000 := (i 0).isLt
  have hi1 : (i 1).val < 128 := (i 1).isLt
  let t : Fin cfg5.N := ⟨(i 0).val / 5000, by rw [hN]; omega⟩
  have ht : t.val = (i 0).val / 5000 := rfl
  obtain ⟨e0, e1, e2, e3, e4, e5, e6, e7⟩ := head_idx_facts t
  refine ⟨t, flush5_3 t, ?_⟩
  rw [head_mem_blk]
  intro a
  match a with
  | ⟨0, _⟩ =>
    show win5_3.index t (0 : Fin 2) * 5000 ≤ (i 0).val ∧ (i 0).val < win5_3.index t (0 : Fin 2) * 5000 + 5000
    rw [e7, ht]; omega
  | ⟨1, _⟩ =>
    show win5_3.index t (1 : Fin 2) * 128 ≤ (i 1).val ∧ (i 1).val < win5_3.index t (1 : Fin 2) * 128 + 128
    rw [e2]; omega

/-- REGION 5 leaves in its output array the head of the arrays it finds: the node rows through the weights plus the
    bias row, then the positive part, row by row. Every point writes back its block of the head, and the blocks fill
    the array. -/
theorem region5 (c : Dev nD) :
    (dat5 (F := Ideal) V c).arrAt 3 cfg5.N
      = Cert.Gnn.relu (Cert.Gnn.affine (V c main_v42) (V c main_arg10) (V c main_v43)) :=
  (dat5 (F := Ideal) V c).arrAt_eq_of_cover 3
    (Cert.Gnn.relu (Cert.Gnn.affine (V c main_v42) (V c main_arg10) (V c main_v43)))
    (fun t _ => head_flushed V c t) head_cover

end Cert.KernelIdeal.Val

end
-- ==== Proof.Chain.lean ====
/-
  What the kernel program's buffers hold at each boundary between its host stretches and its six regions, carried from
  the launch memory to the result array.

  Each region leaves in its output array its dense layer of the arrays it finds (the region modules); each host
  stretch between two regions reshapes a bias vector to one row, pools the edge layer into the nodes, or sums each
  node's in-neighbours' rows of the current activation.  A buffer that a step neither computes nor stages as an output
  keeps its contents: an argument array is read back to the launch memory, the input message is carried unchanged
  through the three rounds that read it.  Following the live buffers boundary by boundary, the result array ends at

      max( H₃ · Wo + bo , 0 ),   Hₖ₊₁ = max( (nbr Hₖ) · Wc + bc + IM , 0 ),   H₀ = max(IM, 0),
      IM = (NF · Wn + bn) + pool (EF · We + be),

  the network of the specification over the pooling and neighbourhood maps of the program's own index operations.
-/
import proofs.«181511_j42279658062025_1_alg».proof.Proof.Gen.KernelIdeal.Frame
import proofs.«181511_j42279658062025_1_alg».proof.Proof.SpecHost
import proofs.«181511_j42279658062025_1_alg».proof.Proof.Glue
import proofs.«181511_j42279658062025_1_alg».proof.Proof.Region0
import proofs.«181511_j42279658062025_1_alg».proof.Proof.Region1
import proofs.«181511_j42279658062025_1_alg».proof.Proof.Region2
import proofs.«181511_j42279658062025_1_alg».proof.Proof.Region3
import proofs.«181511_j42279658062025_1_alg».proof.Proof.Region4
import proofs.«181511_j42279658062025_1_alg».proof.Proof.Region5
import Idealize.ShloMosaic.Lib.StableHlo.Run

set_option maxRecDepth 16384

noncomputable section

namespace Cert.KernelIdeal.Chain

open Idealize.ShloMosaic Idealize.ShloMosaic.TcCoe Idealize.SL.Sem Idealize.ShloMosaic.ValueIdx Idealize.ShloMosaic.StableHlo
open Cert.KernelIdeal Cert.KernelIdeal.Gen Cert.KernelIdeal.Val

variable (m : (ℓ : Loc nD τ sig) → Buf (Elt Ideal) ℓ) (ρ : Dev nD → PrngReg)

/-- A buffer that no operation of a host stretch writes holds after the stretch what it held before. -/
local macro "host_keep " ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.reshape_writes, Finset.mem_singleton]
    repeat' apply And.intro
    all_goals exact StableHlo.devRef_ne_of_ne (by decide))))

/-! ## Steps that leave a buffer alone

  A region rewrites only its windows' arrays, a host stretch only its operations' results: a buffer that is neither
  is carried back, boundary by boundary, to the launch memory. -/

local macro "keep_h0" : tactic => `(tactic| refine Eq.trans (b := W0 m ρ _ _) (by host_keep hostOps0) ?_)
local macro "keep_r0" : tactic => `(tactic| refine (W2_of_ne m ρ _ _ (by decide)).trans ?_)
local macro "keep_h1" : tactic => `(tactic| refine Eq.trans (b := W2 m ρ _ _) (by host_keep hostOps1) ?_)
local macro "keep_r1" : tactic => `(tactic| refine (W4_of_ne m ρ _ _ (by decide)).trans ?_)
local macro "keep_h2" : tactic => `(tactic| refine Eq.trans (b := W4 m ρ _ _) (by host_keep hostOps2) ?_)
local macro "keep_r2" : tactic => `(tactic| refine (W6_of_ne m ρ _ _ (by decide)).trans ?_)
local macro "keep_h3" : tactic => `(tactic| refine Eq.trans (b := W6 m ρ _ _) (by host_keep hostOps3) ?_)
local macro "keep_r3" : tactic => `(tactic| refine (W8_of_ne m ρ _ _ (by decide)).trans ?_)
local macro "keep_h4" : tactic => `(tactic| refine Eq.trans (b := W8 m ρ _ _) (by host_keep hostOps4) ?_)
local macro "keep_r4" : tactic => `(tactic| refine (W10_of_ne m ρ _ _ (by decide)).trans ?_)
local macro "keep_h5" : tactic => `(tactic| refine Eq.trans (b := W10 m ρ _ _) (by host_keep hostOps5) ?_)

/-! ## The network's stages over the launched arrays -/

/-- Pooling by the launched destination words. -/
abbrev poolK (c : Dev nD) : Cert.Gnn.Mat 1600000 128 → Cert.Gnn.Mat 100000 128 :=
  Cert.Gnn.pool scatter_S100000x128_S1600000x1_S1600000x128_1_0_0_1 bcast_S_S100000x128 bcast_S1600000_S1600000x1_0 (m ((c : Thread nD τ).loc main_arg3))
/-- In-neighbour sums by the launched source and destination words. -/
abbrev nbrK (c : Dev nD) : Cert.Gnn.Mat 100000 128 → Cert.Gnn.Mat 100000 128 :=
  Cert.Gnn.nbr gather_S100000x128_S1600000x1_S1600000x128_1_0_n_n_0_1_1128 scatter_S100000x128_S1600000x1_S1600000x128_1_0_0_1
    bcast_S_S100000x128 bcast_S1600000_S1600000x1_0 bcast_S_S1600000 100000#32 (m ((c : Thread nD τ).loc main_arg2)) (m ((c : Thread nD τ).loc main_arg3))
/-- The edge layer. -/
def EL (c : Dev nD) : Cert.Gnn.Mat 1600000 128 := Cert.Gnn.affine (m ((c : Thread nD τ).loc main_arg1)) (m ((c : Thread nD τ).loc main_arg6)) (Cert.Gnn.row (m ((c : Thread nD τ).loc main_arg7)))
/-- The input message: the node layer plus the pooled edge layer. -/
def IM (c : Dev nD) : Cert.Gnn.Mat 100000 128 := Cert.Gnn.affineRes (m ((c : Thread nD τ).loc main_arg0)) (m ((c : Thread nD τ).loc main_arg4)) (Cert.Gnn.row (m ((c : Thread nD τ).loc main_arg5))) (poolK m c (EL m c))
/-- One round: the in-neighbour sums through the round's layer, plus the input message, activated. -/
def stepK (c : Dev nD) (H : Cert.Gnn.Mat 100000 128) : Cert.Gnn.Mat 100000 128 :=
  Cert.Gnn.relu (Cert.Gnn.affineRes (nbrK m c H) (m ((c : Thread nD τ).loc main_arg8)) (Cert.Gnn.row (m ((c : Thread nD τ).loc main_arg9))) (IM m c))

/-! ## Up to the edge layer -/

theorem W1_arg1 (c : Dev nD) : W1 (F := Ideal) m ρ c (Proc.devRef .tc main_arg1) = m ((c : Thread nD τ).loc main_arg1) := by
  keep_h0; rfl
theorem W1_arg6 (c : Dev nD) : W1 (F := Ideal) m ρ c (Proc.devRef .tc main_arg6) = m ((c : Thread nD τ).loc main_arg6) := by
  keep_h0; rfl
/-- The edge bias reshaped to one row. -/
theorem W1_v0 (c : Dev nD) : W1 (F := Ideal) m ρ c (Proc.devRef .tc main_v0) = Cert.Gnn.row (m ((c : Thread nD τ).loc main_arg7)) := by
  show StableHlo.after hostOps0 (W0 m ρ c) (Proc.devRef .tc main_v0) = _
  dsimp only [hostOps0]
  after_results
  exact Cert.Gnn.reshape_row _ _

/-- After region 0 the edge array holds the edge layer of the launched arrays. -/
theorem W2_v1 (c : Dev nD) : W2 (F := Ideal) m ρ c (Proc.devRef .tc main_v1) = EL m c := by
  refine (W2_arr m ρ c 3).trans ?_
  rw [region0 (V1 m ρ) c]
  show Cert.Gnn.affine (W1 m ρ c (Proc.devRef .tc main_arg1)) (W1 m ρ c (Proc.devRef .tc main_arg6)) (W1 m ρ c (Proc.devRef .tc main_v0)) = _
  rw [W1_arg1, W1_arg6, W1_v0]; rfl

/-! ## Up to the node update -/

theorem W2_arg3 (c : Dev nD) : W2 (F := Ideal) m ρ c (Proc.devRef .tc main_arg3) = m ((c : Thread nD τ).loc main_arg3) := by
  keep_r0; keep_h0; rfl
theorem W2_arg5 (c : Dev nD) : W2 (F := Ideal) m ρ c (Proc.devRef .tc main_arg5) = m ((c : Thread nD τ).loc main_arg5) := by
  keep_r0; keep_h0; rfl
/-- The edge layer pooled into the nodes. -/
theorem W3_v4 (c : Dev nD) : W3 (F := Ideal) m ρ c (Proc.devRef .tc main_v4) = poolK m c (EL m c) := by
  show StableHlo.after hostOps1 (W2 m ρ c) (Proc.devRef .tc main_v4) = _
  dsimp only [hostOps1]
  after_results
  rw [W2_arg3, W2_v1]; rfl
/-- The node bias reshaped to one row. -/
theorem W3_v5 (c : Dev nD) : W3 (F := Ideal) m ρ c (Proc.devRef .tc main_v5) = Cert.Gnn.row (m ((c : Thread nD τ).loc main_arg5)) := by
  show StableHlo.after hostOps1 (W2 m ρ c) (Proc.devRef .tc main_v5) = _
  dsimp only [hostOps1]
  after_results
  rw [W2_arg5]; exact Cert.Gnn.reshape_row _ _
theorem W3_arg0 (c : Dev nD) : W3 (F := Ideal) m ρ c (Proc.devRef .tc main_arg0) = m ((c : Thread nD τ).loc main_arg0) := by
  keep_h1; keep_r0; keep_h0; rfl
theorem W3_arg4 (c : Dev nD) : W3 (F := Ideal) m ρ c (Proc.devRef .tc main_arg4) = m ((c : Thread nD τ).loc main_arg4) := by
  keep_h1; keep_r0; keep_h0; rfl

/-- After region 1 its first output holds the input message … -/
theorem W4_v6_0 (c : Dev nD) : W4 (F := Ideal) m ρ c (Proc.devRef .tc main_v6_0) = IM m c := by
  refine (W4_arr m ρ c 4).trans ?_
  rw [region1_im (V3 m ρ) c]
  show Cert.Gnn.affineRes (W3 m ρ c (Proc.devRef .tc main_arg0)) (W3 m ρ c (Proc.devRef .tc main_arg4)) (W3 m ρ c (Proc.devRef .tc main_v5)) (W3 m ρ c (Proc.devRef .tc main_v4)) = _
  rw [W3_arg0, W3_arg4, W3_v5, W3_v4]; rfl
/-- … and its second the activated input message. -/
theorem W4_v6_1 (c : Dev nD) : W4 (F := Ideal) m ρ c (Proc.devRef .tc main_v6_1) = Cert.Gnn.relu (IM m c) := by
  refine (W4_arr m ρ c 5).trans ?_
  rw [region1_h (V3 m ρ) c]
  show Cert.Gnn.relu (Cert.Gnn.affineRes (W3 m ρ c (Proc.devRef .tc main_arg0)) (W3 m ρ c (Proc.devRef .tc main_arg4)) (W3 m ρ c (Proc.devRef .tc main_v5)) (W3 m ρ c (Proc.devRef .tc main_v4))) = _
  rw [W3_arg0, W3_arg4, W3_v5, W3_v4]; rfl

/-! ## Round 1 -/

theorem W4_arg2 (c : Dev nD) : W4 (F := Ideal) m ρ c (Proc.devRef .tc main_arg2) = m ((c : Thread nD τ).loc main_arg2) := by
  keep_r1; keep_h1; keep_r0; keep_h0; rfl
theorem W4_arg3 (c : Dev nD) : W4 (F := Ideal) m ρ c (Proc.devRef .tc main_arg3) = m ((c : Thread nD τ).loc main_arg3) := by
  keep_r1; keep_h1; keep_r0; keep_h0; rfl
theorem W4_arg9 (c : Dev nD) : W4 (F := Ideal) m ρ c (Proc.devRef .tc main_arg9) = m ((c : Thread nD τ).loc main_arg9) := by
  keep_r1; keep_h1; keep_r0; keep_h0; rfl
/-- The in-neighbour sums of the activation the round starts from. -/
theorem W5_v16 (c : Dev nD) : W5 (F := Ideal) m ρ c (Proc.devRef .tc main_v16) = nbrK m c (Cert.Gnn.relu (IM m c)) := by
  show StableHlo.after hostOps2 (W4 m ρ c) (Proc.devRef .tc main_v16) = _
  dsimp only [hostOps2]
  after_results
  rw [W4_arg2, W4_arg3, W4_v6_1]; rfl
/-- The round's bias reshaped to one row. -/
theorem W5_v17 (c : Dev nD) : W5 (F := Ideal) m ρ c (Proc.devRef .tc main_v17) = Cert.Gnn.row (m ((c : Thread nD τ).loc main_arg9)) := by
  show StableHlo.after hostOps2 (W4 m ρ c) (Proc.devRef .tc main_v17) = _
  dsimp only [hostOps2]
  after_results
  rw [W4_arg9]; exact Cert.Gnn.reshape_row _ _
theorem W5_arg8 (c : Dev nD) : W5 (F := Ideal) m ρ c (Proc.devRef .tc main_arg8) = m ((c : Thread nD τ).loc main_arg8) := by
  keep_h2; keep_r1; keep_h1; keep_r0; keep_h0; rfl
theorem W5_v6_0 (c : Dev nD) : W5 (F := Ideal) m ρ c (Proc.devRef .tc main_v6_0) = IM m c := by
  keep_h2; exact W4_v6_0 m ρ c
/-- After the round's region its output holds the round's step of the activation it started from. -/
theorem W6_v18 (c : Dev nD) : W6 (F := Ideal) m ρ c (Proc.devRef .tc main_v18) = stepK m c (Cert.Gnn.relu (IM m c)) := by
  refine (W6_arr m ρ c 4).trans ?_
  rw [region2 (V5 m ρ) c]
  show Cert.Gnn.relu (Cert.Gnn.affineRes (W5 m ρ c (Proc.devRef .tc main_v16)) (W5 m ρ c (Proc.devRef .tc main_arg8)) (W5 m ρ c (Proc.devRef .tc main_v17)) (W5 m ρ c (Proc.devRef .tc main_v6_0))) = _
  rw [W5_v16, W5_arg8, W5_v17, W5_v6_0]; rfl

/-! ## Round 2 -/

theorem W6_arg2 (c : Dev nD) : W6 (F := Ideal) m ρ c (Proc.devRef .tc main_arg2) = (m ((c : Thread nD τ).loc main_arg2)) := by
  keep_r2; keep_h2; exact W4_arg2 m ρ c
theorem W6_arg3 (c : Dev nD) : W6 (F := Ideal) m ρ c (Proc.devRef .tc main_arg3) = (m ((c : Thread nD τ).loc main_arg3)) := by
  keep_r2; keep_h2; exact W4_arg3 m ρ c
theorem W6_arg9 (c : Dev nD) : W6 (F := Ideal) m ρ c (Proc.devRef .tc main_arg9) = (m ((c : Thread nD τ).loc main_arg9)) := by
  keep_r2; keep_h2; exact W4_arg9 m ρ c
/-- Region 2 only reads this array (an input window): it leaves it as entered. -/
theorem W6_arg8 (c : Dev nD) : W6 (F := Ideal) m ρ c (Proc.devRef .tc main_arg8) = (m ((c : Thread nD τ).loc main_arg8)) :=
  ((W6_arr m ρ c 1).trans (((dat2 (V5 m ρ) c).arrAt_in 1 rfl _).trans (A_eq2 (V5 m ρ) c 1))).trans (W5_arg8 m ρ c)
/-- Region 2 only reads this array (an input window): it leaves it as entered. -/
theorem W6_v6_0 (c : Dev nD) : W6 (F := Ideal) m ρ c (Proc.devRef .tc main_v6_0) = IM m c :=
  ((W6_arr m ρ c 3).trans (((dat2 (V5 m ρ) c).arrAt_in 3 rfl _).trans (A_eq2 (V5 m ρ) c 3))).trans (W5_v6_0 m ρ c)
/-- The in-neighbour sums of the activation the round starts from. -/
theorem W7_v28 (c : Dev nD) : W7 (F := Ideal) m ρ c (Proc.devRef .tc main_v28) = nbrK m c (stepK m c (Cert.Gnn.relu (IM m c))) := by
  show StableHlo.after hostOps3 (W6 m ρ c) (Proc.devRef .tc main_v28) = _
  dsimp only [hostOps3]
  after_results
  rw [W6_arg2, W6_arg3, W6_v18]; rfl
/-- The round's bias reshaped to one row. -/
theorem W7_v29 (c : Dev nD) : W7 (F := Ideal) m ρ c (Proc.devRef .tc main_v29) = Cert.Gnn.row (m ((c : Thread nD τ).loc main_arg9)) := by
  show StableHlo.after hostOps3 (W6 m ρ c) (Proc.devRef .tc main_v29) = _
  dsimp only [hostOps3]
  after_results
  rw [W6_arg9]; exact Cert.Gnn.reshape_row _ _
theorem W7_arg8 (c : Dev nD) : W7 (F := Ideal) m ρ c (Proc.devRef .tc main_arg8) = (m ((c : Thread nD τ).loc main_arg8)) := by
  keep_h3; exact W6_arg8 m ρ c
theorem W7_v6_0 (c : Dev nD) : W7 (F := Ideal) m ρ c (Proc.devRef .tc main_v6_0) = IM m c := by
  keep_h3; exact W6_v6_0 m ρ c
/-- After the round's region its output holds the round's step of the activation it started from. -/
theorem W8_v30 (c : Dev nD) : W8 (F := Ideal) m ρ c (Proc.devRef .tc main_v30) = stepK m c (stepK m c (Cert.Gnn.relu (IM m c))) := by
  refine (W8_arr m ρ c 4).trans ?_
  rw [region3 (V7 m ρ) c]
  show Cert.Gnn.relu (Cert.Gnn.affineRes (W7 m ρ c (Proc.devRef .tc main_v28)) (W7 m ρ c (Proc.devRef .tc main_arg8)) (W7 m ρ c (Proc.devRef .tc main_v29)) (W7 m ρ c (Proc.devRef .tc main_v6_0))) = _
  rw [W7_v28, W7_arg8, W7_v29, W7_v6_0]; rfl

/-! ## Round 3 -/

theorem W8_arg2 (c : Dev nD) : W8 (F := Ideal) m ρ c (Proc.devRef .tc main_arg2) = (m ((c : Thread nD τ).loc main_arg2)) := by
  keep_r3; keep_h3; exact W6_arg2 m ρ c
theorem W8_arg3 (c : Dev nD) : W8 (F := Ideal) m ρ c (Proc.devRef .tc main_arg3) = (m ((c : Thread nD τ).loc main_arg3)) := by
  keep_r3; keep_h3; exact W6_arg3 m ρ c
theorem W8_arg9 (c : Dev nD) : W8 (F := Ideal) m ρ c (Proc.devRef .tc main_arg9) = (m ((c : Thread nD τ).loc main_arg9)) := by
  keep_r3; keep_h3; exact W6_arg9 m ρ c
/-- Region 3 only reads this array (an input window): it leaves it as entered. -/
theorem W8_arg8 (c : Dev nD) : W8 (F := Ideal) m ρ c (Proc.devRef .tc main_arg8) = (m ((c : Thread nD τ).loc main_arg8)) :=
  ((W8_arr m ρ c 1).trans (((dat3 (V7 m ρ) c).arrAt_in 1 rfl _).trans (A_eq3 (V7 m ρ) c 1))).trans (W7_arg8 m ρ c)
/-- Region 3 only reads this array (an input window): it leaves it as entered. -/
theorem W8_v6_0 (c : Dev nD) : W8 (F := Ideal) m ρ c (Proc.devRef .tc main_v6_0) = IM m c :=
  ((W8_arr m ρ c 3).trans (((dat3 (V7 m ρ) c).arrAt_in 3 rfl _).trans (A_eq3 (V7 m ρ) c 3))).trans (W7_v6_0 m ρ c)
/-- The in-neighbour sums of the activation the round starts from. -/
theorem W9_v40 (c : Dev nD) : W9 (F := Ideal) m ρ c (Proc.devRef .tc main_v40) = nbrK m c (stepK m c (stepK m c (Cert.Gnn.relu (IM m c)))) := by
  show StableHlo.after hostOps4 (W8 m ρ c) (Proc.devRef .tc main_v40) = _
  dsimp only [hostOps4]
  after_results
  rw [W8_arg2, W8_arg3, W8_v30]; rfl
/-- The round's bias reshaped to one row. -/
theorem W9_v41 (c : Dev nD) : W9 (F := Ideal) m ρ c (Proc.devRef .tc main_v41) = Cert.Gnn.row (m ((c : Thread nD τ).loc main_arg9)) := by
  show StableHlo.after hostOps4 (W8 m ρ c) (Proc.devRef .tc main_v41) = _
  dsimp only [hostOps4]
  after_results
  rw [W8_arg9]; exact Cert.Gnn.reshape_row _ _
theorem W9_arg8 (c : Dev nD) : W9 (F := Ideal) m ρ c (Proc.devRef .tc main_arg8) = (m ((c : Thread nD τ).loc main_arg8)) := by
  keep_h4; exact W8_arg8 m ρ c
theorem W9_v6_0 (c : Dev nD) : W9 (F := Ideal) m ρ c (Proc.devRef .tc main_v6_0) = IM m c := by
  keep_h4; exact W8_v6_0 m ρ c
/-- After the round's region its output holds the round's step of the activation it started from. -/
theorem W10_v42 (c : Dev nD) : W10 (F := Ideal) m ρ c (Proc.devRef .tc main_v42) = stepK m c (stepK m c (stepK m c (Cert.Gnn.relu (IM m c)))) := by
  refine (W10_arr m ρ c 4).trans ?_
  rw [region4 (V9 m ρ) c]
  show Cert.Gnn.relu (Cert.Gnn.affineRes (W9 m ρ c (Proc.devRef .tc main_v40)) (W9 m ρ c (Proc.devRef .tc main_arg8)) (W9 m ρ c (Proc.devRef .tc main_v41)) (W9 m ρ c (Proc.devRef .tc main_v6_0))) = _
  rw [W9_v40, W9_arg8, W9_v41, W9_v6_0]; rfl

/-! ## The output head -/

theorem W10_arg11 (c : Dev nD) : W10 (F := Ideal) m ρ c (Proc.devRef .tc main_arg11) = m ((c : Thread nD τ).loc main_arg11) := by
  keep_r4; keep_h4; keep_r3; keep_h3; keep_r2; keep_h2; keep_r1; keep_h1; keep_r0; keep_h0; rfl
theorem W11_arg10 (c : Dev nD) : W11 (F := Ideal) m ρ c (Proc.devRef .tc main_arg10) = m ((c : Thread nD τ).loc main_arg10) := by
  keep_h5; keep_r4; keep_h4; keep_r3; keep_h3; keep_r2; keep_h2; keep_r1; keep_h1; keep_r0; keep_h0; rfl
/-- The head's bias reshaped to one row. -/
theorem W11_v43 (c : Dev nD) : W11 (F := Ideal) m ρ c (Proc.devRef .tc main_v43) = Cert.Gnn.row (m ((c : Thread nD τ).loc main_arg11)) := by
  show StableHlo.after hostOps5 (W10 m ρ c) (Proc.devRef .tc main_v43) = _
  dsimp only [hostOps5]
  after_results
  rw [W10_arg11]; exact Cert.Gnn.reshape_row _ _
theorem W11_v42 (c : Dev nD) : W11 (F := Ideal) m ρ c (Proc.devRef .tc main_v42) = stepK m c (stepK m c (stepK m c (Cert.Gnn.relu (IM m c)))) := by
  keep_h5; exact W10_v42 m ρ c

/-- The result array at the last boundary: the head's layer of the third round's activation, activated. -/
theorem W12_v44 (c : Dev nD) : W12 (F := Ideal) m ρ c (Proc.devRef .tc main_v44)
    = Cert.Gnn.relu (Cert.Gnn.affine (stepK m c (stepK m c (stepK m c (Cert.Gnn.relu (IM m c))))) (m ((c : Thread nD τ).loc main_arg10)) (Cert.Gnn.row (m ((c : Thread nD τ).loc main_arg11)))) := by
  refine (W12_arr m ρ c 3).trans ?_
  rw [region5 (V11 m ρ) c]
  show Cert.Gnn.relu (Cert.Gnn.affine (W11 m ρ c (Proc.devRef .tc main_v42)) (W11 m ρ c (Proc.devRef .tc main_arg10)) (W11 m ρ c (Proc.devRef .tc main_v43))) = _
  rw [W11_v42, W11_arg10, W11_v43]

/-- The result array at the last boundary is the network of the launched arrays, over the pooling and neighbourhood
    maps of the program's own index operations. -/
theorem W12_out (c : Dev nD) : W12 (F := Ideal) m ρ c (Proc.devRef .tc main_v44)
    = Cert.Gnn.net
        (Cert.Gnn.pool scatter_S100000x128_S1600000x1_S1600000x128_1_0_0_1 bcast_S_S100000x128 bcast_S1600000_S1600000x1_0
          (m ((c : Thread nD τ).loc main_arg3)))
        (Cert.Gnn.nbr gather_S100000x128_S1600000x1_S1600000x128_1_0_n_n_0_1_1128 scatter_S100000x128_S1600000x1_S1600000x128_1_0_0_1
          bcast_S_S100000x128 bcast_S1600000_S1600000x1_0 bcast_S_S1600000 100000#32
          (m ((c : Thread nD τ).loc main_arg2)) (m ((c : Thread nD τ).loc main_arg3)))
        (m ((c : Thread nD τ).loc main_arg0)) (m ((c : Thread nD τ).loc main_arg1))
        (m ((c : Thread nD τ).loc main_arg4)) (Cert.Gnn.row (m ((c : Thread nD τ).loc main_arg5)))
        (m ((c : Thread nD τ).loc main_arg6)) (Cert.Gnn.row (m ((c : Thread nD τ).loc main_arg7)))
        (m ((c : Thread nD τ).loc main_arg8)) (Cert.Gnn.row (m ((c : Thread nD τ).loc main_arg9)))
        (m ((c : Thread nD τ).loc main_arg10)) (Cert.Gnn.row (m ((c : Thread nD τ).loc main_arg11))) :=
  (W12_v44 m ρ c).trans rfl

end Cert.KernelIdeal.Chain

end
-- ==== Proof.RefValue.lean ====
/-
  The reference's result as the network of the specification.

  The reference's run composes its result from the argument arrays as one nested term: four kinds of dense layer, each
  a contraction plus a bias vector broadcast to one row and down the rows, the maximum with a broadcast zero, and the
  index operations that pool edge rows into nodes and read node rows by source word.  Stage by stage — the input
  message, one round, the output head — that text is the specification's layer over the same pooling and
  neighbourhood maps; three rounds and the head on top of the activated input message give the whole network.
-/
import proofs.«181511_j42279658062025_1_alg».proof.Proof.Gen.ReferenceIdeal.Run
import proofs.«181511_j42279658062025_1_alg».proof.Proof.SpecHost
import proofs.«181511_j42279658062025_1_alg».proof.Proof.Glue

noncomputable section

namespace Cert.ReferenceIdeal.RefValue

open Idealize.ShloMosaic Idealize.ShloMosaic.TcCoe Idealize.SL.Sem Idealize.ShloMosaic.ValueIdx
open Cert.ReferenceIdeal Cert.ReferenceIdeal.Gen

section Blocks

open Cert.Gnn Cert.Lib.DotRowsCols

/-- The node-side contraction record contracts the left array's columns against the right array's rows. -/
theorem rc128 : RowsCols dot_S100000x128_S128x128_S100000x128_1_0_0_1_n_n :=
  ⟨rfl, rfl, rfl, rfl, rfl, rfl⟩

/-- The edge-side contraction record contracts the left array's columns against the right array's rows. -/
theorem rc64 : RowsCols dot_S1600000x64_S64x128_S1600000x128_1_0_0_1_n_n :=
  ⟨rfl, rfl, rfl, rfl, rfl, rfl⟩

/-- A dense layer over the node rows, in the reference's spelling. -/
theorem aff128 (X : FVec Ideal S100000x128 .f32) (W : FVec Ideal S128x128 .f32) (b : FVec Ideal S128 .f32) :
    addf (Host.dotGeneral (F := Ideal) dot_S100000x128_S128x128_S100000x128_1_0_0_1_n_n none X W)
        (broadcastInDim S100000x128 ![0, 1] bcast_S1x128_S100000x128_0_1
          (broadcastInDim S1x128 ![1] bcast_S128_S1x128_1 b))
      = affine X W (row b) :=
  affine_host _ rc128 X W b _ _

/-- A dense layer over the edge rows, in the reference's spelling. -/
theorem aff64 (X : FVec Ideal S1600000x64 .f32) (W : FVec Ideal S64x128 .f32) (b : FVec Ideal S128 .f32) :
    addf (Host.dotGeneral (F := Ideal) dot_S1600000x64_S64x128_S1600000x128_1_0_0_1_n_n none X W)
        (broadcastInDim S1600000x128 ![0, 1] bcast_S1x128_S1600000x128_0_1
          (broadcastInDim S1x128 ![1] bcast_S128_S1x128_1 b))
      = affine X W (row b) :=
  affine_host _ rc64 X W b _ _

/-- The activation over the node rows, in the reference's spelling. -/
theorem relu128 (x : FVec Ideal S100000x128 .f32) :
    maximumf x (broadcastInDim S100000x128 ![] bcast_S_S100000x128 (constant (F := Ideal) S_ .f32 0x00000000#32))
      = relu x :=
  relu_host x _

/-- The initial message: the node features' dense layer plus the pooled edge features' dense layer. -/
theorem im_host (NF : FVec Ideal S100000x128 .f32) (EF : FVec Ideal S1600000x64 .f32)
    (Wn : FVec Ideal S128x128 .f32) (bn : FVec Ideal S128 .f32)
    (We : FVec Ideal S64x128 .f32) (be : FVec Ideal S128 .f32) (dst : IVec S1600000 32) :
    addf (addf (Host.dotGeneral (F := Ideal) dot_S100000x128_S128x128_S100000x128_1_0_0_1_n_n none NF Wn)
          (broadcastInDim S100000x128 ![0, 1] bcast_S1x128_S100000x128_0_1
            (broadcastInDim S1x128 ![1] bcast_S128_S1x128_1 bn)))
        (Host.scatterAdd scatter_S100000x128_S1600000x1_S1600000x128_1_0_0_1
          (broadcastInDim S100000x128 ![] bcast_S_S100000x128 (constant S_ .f32 0x00000000#32))
          (broadcastInDim S1600000x1 ![0] bcast_S1600000_S1600000x1_0 dst)
          (addf (Host.dotGeneral dot_S1600000x64_S64x128_S1600000x128_1_0_0_1_n_n none EF We)
            (broadcastInDim S1600000x128 ![0, 1] bcast_S1x128_S1600000x128_0_1
              (broadcastInDim S1x128 ![1] bcast_S128_S1x128_1 be))))
      = affineRes NF Wn (row bn)
          (pool scatter_S100000x128_S1600000x1_S1600000x128_1_0_0_1 bcast_S_S100000x128
            bcast_S1600000_S1600000x1_0 dst (affine EF We (row be))) := by
  rw [aff128, aff64]
  rfl

/-- One message-passing step: the neighbourhood sum of the state through the dense layer, plus the initial
    message, activated. -/
theorem step_host (H IM : FVec Ideal S100000x128 .f32) (Wc : FVec Ideal S128x128 .f32) (bc : FVec Ideal S128 .f32)
    (src dst : IVec S1600000 32) :
    maximumf
        (addf
          (addf
            (Host.dotGeneral (F := Ideal) dot_S100000x128_S128x128_S100000x128_1_0_0_1_n_n none
              (Host.scatterAdd scatter_S100000x128_S1600000x1_S1600000x128_1_0_0_1
                (broadcastInDim S100000x128 ![] bcast_S_S100000x128 (constant S_ .f32 0x00000000#32))
                (broadcastInDim S1600000x1 ![0] bcast_S1600000_S1600000x1_0 dst)
                (Host.gather gather_S100000x128_S1600000x1_S1600000x128_1_0_n_n_0_1_1128 H
                  (broadcastInDim S1600000x1 ![0] bcast_S1600000_S1600000x1_0
                    (select (cmpi .slt src (broadcastInDim S1600000 ![] bcast_S_S1600000 (constantI S_ 32 0#32)))
                      (addi src (broadcastInDim S1600000 ![] bcast_S_S1600000 (constantI S_ 32 100000#32)))
                      src))))
              Wc)
            (broadcastInDim S100000x128 ![0, 1] bcast_S1x128_S100000x128_0_1
              (broadcastInDim S1x128 ![1] bcast_S128_S1x128_1 bc)))
          IM)
        (broadcastInDim S100000x128 ![] bcast_S_S100000x128 (constant S_ .f32 0x00000000#32))
      = relu (affineRes
          (nbr gather_S100000x128_S1600000x1_S1600000x128_1_0_n_n_0_1_1128
            scatter_S100000x128_S1600000x1_S1600000x128_1_0_0_1 bcast_S_S100000x128 bcast_S1600000_S1600000x1_0
            bcast_S_S1600000 100000#32 src dst H)
          Wc (row bc) IM) := by
  rw [relu128, aff128]
  rfl

/-- The step, its state and its initial message each given up to an equation. -/
theorem step_host' {H H' IM IM' : FVec Ideal S100000x128 .f32} (hH : H = H') (hIM : IM = IM')
    (Wc : FVec Ideal S128x128 .f32) (bc : FVec Ideal S128 .f32) (src dst : IVec S1600000 32) :
    maximumf
        (addf
          (addf
            (Host.dotGeneral (F := Ideal) dot_S100000x128_S128x128_S100000x128_1_0_0_1_n_n none
              (Host.scatterAdd scatter_S100000x128_S1600000x1_S1600000x128_1_0_0_1
                (broadcastInDim S100000x128 ![] bcast_S_S100000x128 (constant S_ .f32 0x00000000#32))
                (broadcastInDim S1600000x1 ![0] bcast_S1600000_S1600000x1_0 dst)
                (Host.gather gather_S100000x128_S1600000x1_S1600000x128_1_0_n_n_0_1_1128 H
                  (broadcastInDim S1600000x1 ![0] bcast_S1600000_S1600000x1_0
                    (select (cmpi .slt src (broadcastInDim S1600000 ![] bcast_S_S1600000 (constantI S_ 32 0#32)))
                      (addi src (broadcastInDim S1600000 ![] bcast_S_S1600000 (constantI S_ 32 100000#32)))
                      src))))
              Wc)
            (broadcastInDim S100000x128 ![0, 1] bcast_S1x128_S100000x128_0_1
              (broadcastInDim S1x128 ![1] bcast_S128_S1x128_1 bc)))
          IM)
        (broadcastInDim S100000x128 ![] bcast_S_S100000x128 (constant S_ .f32 0x00000000#32))
      = relu (affineRes
          (nbr gather_S100000x128_S1600000x1_S1600000x128_1_0_n_n_0_1_1128
            scatter_S100000x128_S1600000x1_S1600000x128_1_0_0_1 bcast_S_S100000x128 bcast_S1600000_S1600000x1_0
            bcast_S_S1600000 100000#32 src dst H')
          Wc (row bc) IM') := by
  subst hH hIM
  exact step_host _ _ Wc bc src dst

/-- The activation, its array given up to an equation. -/
theorem relu128' {x y : FVec Ideal S100000x128 .f32} (h : x = y) :
    maximumf x (broadcastInDim S100000x128 ![] bcast_S_S100000x128 (constant (F := Ideal) S_ .f32 0x00000000#32))
      = relu y := by
  subst h
  exact relu128 _

/-- The output layer: the dense layer of the final state (given up to an equation), activated. -/
theorem out_host' {H H' : FVec Ideal S100000x128 .f32} (hH : H = H') (Wo : FVec Ideal S128x128 .f32)
    (bo : FVec Ideal S128 .f32) :
    maximumf
        (addf (Host.dotGeneral (F := Ideal) dot_S100000x128_S128x128_S100000x128_1_0_0_1_n_n none H Wo)
          (broadcastInDim S100000x128 ![0, 1] bcast_S1x128_S100000x128_0_1
            (broadcastInDim S1x128 ![1] bcast_S128_S1x128_1 bo)))
        (broadcastInDim S100000x128 ![] bcast_S_S100000x128 (constant S_ .f32 0x00000000#32))
      = relu (affine H' Wo (row bo)) := by
  subst hH
  rw [relu128, aff128]

end Blocks

/-- The reference's result, as the run composes it from the arguments, is the network over the pooling and
    neighbourhood maps of the reference's own index operations. -/
theorem ref_value (m : (ℓ : Loc nD τ sig) → Buf (Elt Ideal) ℓ) (c : Dev nD) :
    Cert.ReferenceIdeal.Value.res_main_v65 (F := Ideal) m c
      = Cert.Gnn.net
        (Cert.Gnn.pool scatter_S100000x128_S1600000x1_S1600000x128_1_0_0_1 bcast_S_S100000x128 bcast_S1600000_S1600000x1_0
          (m ((c.tc : Thread nD τ).loc main_arg3)))
        (Cert.Gnn.nbr gather_S100000x128_S1600000x1_S1600000x128_1_0_n_n_0_1_1128 scatter_S100000x128_S1600000x1_S1600000x128_1_0_0_1
          bcast_S_S100000x128 bcast_S1600000_S1600000x1_0 bcast_S_S1600000 100000#32
          (m ((c.tc : Thread nD τ).loc main_arg2)) (m ((c.tc : Thread nD τ).loc main_arg3)))
        (m ((c.tc : Thread nD τ).loc main_arg0)) (m ((c.tc : Thread nD τ).loc main_arg1))
        (m ((c.tc : Thread nD τ).loc main_arg4)) (Cert.Gnn.row (m ((c.tc : Thread nD τ).loc main_arg5)))
        (m ((c.tc : Thread nD τ).loc main_arg6)) (Cert.Gnn.row (m ((c.tc : Thread nD τ).loc main_arg7)))
        (m ((c.tc : Thread nD τ).loc main_arg8)) (Cert.Gnn.row (m ((c.tc : Thread nD τ).loc main_arg9)))
        (m ((c.tc : Thread nD τ).loc main_arg10)) (Cert.Gnn.row (m ((c.tc : Thread nD τ).loc main_arg11))) := by
  -- The initial message occurs four times: once under the first activation and once in each of the three steps.
  have hIM := im_host (m ((c.tc : Thread nD τ).loc main_arg0)) (m ((c.tc : Thread nD τ).loc main_arg1))
    (m ((c.tc : Thread nD τ).loc main_arg4)) (m ((c.tc : Thread nD τ).loc main_arg5))
    (m ((c.tc : Thread nD τ).loc main_arg6)) (m ((c.tc : Thread nD τ).loc main_arg7))
    (m ((c.tc : Thread nD τ).loc main_arg3))
  unfold Cert.ReferenceIdeal.Value.res_main_v65
  simp only [Cert.Gnn.net]
  -- Output layer over three steps over the activated initial message.
  exact out_host'
    (step_host'
      (step_host'
        (step_host' (relu128' hIM) hIM _ _ _ _)
        hIM _ _ _ _)
      hIM _ _ _ _)
    _ _

end Cert.ReferenceIdeal.RefValue

end
-- ==== Proof.lean ====
/-
  The certificate: a six-region message-passing kernel program against its plain reference, over the extended reals.

  Both programs compute, from node features NF, edge features EF, source and destination words of the edges and the
  weights and biases of four dense layers,

      EL  = EF · We + be                      IM = (NF · Wn + bn) + pool EL          H₀ = max(IM, 0)
      Hₖ₊₁ = max((nbr Hₖ) · Wc + bc + IM, 0)   (three rounds)                         out = max(H₃ · Wo + bo, 0)

  where pool sums edge rows into the node each edge points to and nbr sums each node's in-neighbours' rows.  The
  kernel program computes every dense layer a block of rows at a time, with the operands rounded to a narrower format
  on the way into the product (the identity on extended reals) and the product accumulated from zero; the reference
  computes each layer as one contraction.  Entry (r, v) of a product reads only row r of the left operand, so the
  blocks of rows are the rows of the whole product, and both are the same finite sum ∑ q, X (r, q) · W (q, v): no law
  beyond reordering a finite sum is used, and the precondition is never opened.  The pooling and neighbourhood maps are
  the same host operations on the same index words in both programs and are never opened either.

  The three frames are the generated ones (the reference's is its run with the result forgotten); nothing was rewritten
  by the idealization, so the preservation conjunct is trivial; the value conjunct puts the kernel program's run (its
  launch with the result array read at the last boundary), the chain of boundary contents and the reference's run
  side by side.
-/
import proofs.«181511_j42279658062025_1_alg».proof.Defs
import proofs.«181511_j42279658062025_1_alg».proof.Proof.Gen.Kernel
import proofs.«181511_j42279658062025_1_alg».proof.Proof.Gen.Kernel.Frame
import proofs.«181511_j42279658062025_1_alg».proof.Proof.Gen.KernelIdeal
import proofs.«181511_j42279658062025_1_alg».proof.Proof.Gen.ReferenceIdeal
import proofs.«181511_j42279658062025_1_alg».proof.Proof.Gen.ReferenceIdeal.Run
import proofs.«181511_j42279658062025_1_alg».proof.Proof.Gen.Pre_finite_inputs
import proofs.«181511_j42279658062025_1_alg».proof.Proof.KernelRun
import Idealize.ShloMosaic.Adequacy
import Idealize.ShloMosaic.Init
import proofs.«181511_j42279658062025_1_alg».proof.Proof.Chain
import proofs.«181511_j42279658062025_1_alg».proof.Proof.RefValue

noncomputable section

namespace Cert.Proof

open Idealize.ShloMosaic Idealize.SL.Sem

/-- The word-level program terminates without a fault and leaves its arguments as launched. -/
theorem frame_k : Cert.frame_Kernel := fun m ρ _ => Cert.Kernel.Gen.frame m ρ
/-- So does its idealization. -/
theorem frame_ki : Cert.frame_KernelIdeal := fun m ρ _ => Cert.KernelIdeal.Gen.frame m ρ
/-- The reference is a line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end at the network of the launched arrays: the kernel program because each region leaves
    its dense layer of what it finds and the host stretches between them pool and gather, the reference because its
    composed term is the same layers over the same pooling and gathering; the two index maps are the same operations
    on the same words once the arguments agree. -/
theorem algebraic : Cert.algebraic_KernelIdeal_ReferenceIdeal := by
  intro m ρ m' ρ' _ hagree
  refine ⟨fun c => _, (θ_run Cert.KernelIdeal.defs _ _).mono
      (fun r h c => ⟨(h c).1.trans (Cert.KernelIdeal.Chain.W12_out m ρ c), (h c).2⟩)
      (Cert.KernelIdeal.Named.run_named (F := Ideal) m ρ), ?_⟩
  refine (θ_run Cert.ReferenceIdeal.defs _ _).mono (fun r h c => ⟨(h c).1.trans ?_, (h c).2⟩)
    (Cert.ReferenceIdeal.Value.run (F := Ideal) m' ρ')
  obtain ⟨e0, e1, e2, e3, e4, e5, e6, e7, e8, e9, e10, e11⟩ := hagree c
  rw [Cert.ReferenceIdeal.RefValue.ref_value m' c, e0, e1, e2, e3, e4, e5, e6, e7, e8, e9, e10, e11]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
